-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x256 : Shape := ⟨3, ![4096, 128, 256]⟩
abbrev S4096x1 : Shape := ⟨2, ![4096, 1]⟩
abbrev S4096x1x256 : Shape := ⟨3, ![4096, 1, 256]⟩
abbrev S4096x1x1x256 : Shape := ⟨4, ![4096, 1, 1, 256]⟩
abbrev S768x256 : Shape := ⟨2, ![768, 256]⟩
abbrev S256 : Shape := ⟨1, ![256]⟩
abbrev S256x256 : Shape := ⟨2, ![256, 256]⟩
abbrev S_ : Shape := ⟨0, ![]⟩

class Facts : Prop where
  bcast_S_S4096x128x256 : S_.BroadcastsInDim S4096x128x256 (![] : Fin 0 → Fin S4096x128x256.rank)
  reducesTo_S4096x128x256_S_d0_1_2 : S4096x128x256.ReducesTo [0, 1, 2] S_
  h_S_ : 0 < S_.numel
  bcast_S_S4096x1x256 : S_.BroadcastsInDim S4096x1x256 (![] : Fin 0 → Fin S4096x1x256.rank)
  reducesTo_S4096x1x256_S_d0_1_2 : S4096x1x256.ReducesTo [0, 1, 2] S_
  bcast_S_S4096x1x1x256 : S_.BroadcastsInDim S4096x1x1x256 (![] : Fin 0 → Fin S4096x1x1x256.rank)
  reducesTo_S4096x1x1x256_S_d0_1_2_3 : S4096x1x1x256.ReducesTo [0, 1, 2, 3] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part3 {F : FTy → Type} [FloatOps F] (main_v48 : IVec S_ 1) (main_v50 : IVec S4096x1 1) : IVec S_ 1 :=
  let main_c_19 : IVec S_ 1 := constantI S_ 1 1#1
  let main_v51 : IVec S_ 1 := (fun x v => Host.reduce IntOp.andi x v reducesTo_S4096x1_S_d0_1 h_S_) main_v50 main_c_19
  let main_v52 : IVec S_ 1 := andi main_v48 main_v51
  main_v52

def fn_part2 {F : FTy → Type} [FloatOps F] (main_arg1 : IVec S4096x1 32) (main_arg8 : FVec F S256 .f32) (main_arg9 : FVec F S256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S4096x1 32 := broadcastInDim S4096x1 ![] bcast_S_S4096x1 main_c_18
  let main_v50 : IVec S4096x1 1 := cmpi .sge main_arg1 main_v49
  fn_part3 (F := F) main_v48 main_v50

def fn_part1 {F : FTy → Type} [FloatOps F] (main_arg1 : IVec S4096x1 32) (main_arg5 : FVec F S768x256 .f32) (main_arg6 : FVec F S256 .f32) (main_arg7 : FVec F S256x256 .f32) (main_arg8 : FVec F S256 .f32) (main_arg9 : FVec F S256 .f32) (main_arg10 : FVec F S256 .f32) (main_v13 : IVec S_ 1) (main_v16 : IVec S4096x1x1x256 1) : IVec S_ 1 :=
  let main_c_5 : IVec S_ 1 := constantI S_ 1 1#1
  let main_v17 : IVec S_ 1 := (fun x v => Host.reduce IntOp.andi x v reducesTo_S4096x1x1x256_S_d0_1_2_3 h_S_) main_v16 main_c_5
  let main_v18 : IVec S_ 1 := andi main_v13 main_v17
  let main_v19 : FVec F S768x256 .f32 := Host.absf main_arg5
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S4096x128x256 .f32) (main_arg1 : IVec S4096x1 32) (main_arg2 : FVec F S4096x1x256 .f32) (main_arg3 : FVec F S4096x1x256 .f32) (main_arg4 : FVec F S4096x1x1x256 .f32) (main_arg5 : FVec F S768x256 .f32) (main_arg6 : FVec F S256 .f32) (main_arg7 : FVec F S256x256 .f32) (main_arg8 : FVec F S256 .f32) (main_arg9 : FVec F S256 .f32) (main_arg10 : FVec F S256 .f32) : IVec S_ 1 :=
  let main_v0 : FVec F S4096x128x256 .f32 := Host.absf main_arg0
  let main_cst : FVec F S_ .f32 := constant S_ .f32 0x7F800000#32
  let main_v1 : FVec F S4096x128x256 .f32 := broadcastInDim S4096x128x256 ![] bcast_S_S4096x128x256 main_cst
  let main_v2 : IVec S4096x128x256 1 := cmpf .olt main_v0 main_v1
  let main_c : IVec S_ 1 := constantI S_ 1 1#1
  let main_v3 : IVec S_ 1 := (fun x v => Host.reduce IntOp.andi x v reducesTo_S4096x128x256_S_d0_1_2 h_S_) main_v2 main_c
  let main_v4 : FVec F S4096x1x256 .f32 := Host.absf main_arg2
  let main_cst_0 : FVec F S_ .f32 := constant S_ .f32 0x7F800000#32
  let main_v5 : FVec F S4096x1x256 .f32 := broadcastInDim S4096x1x256 ![] bcast_S_S4096x1x256 main_cst_0
  let main_v6 : IVec S4096x1x256 1 := cmpf .olt main_v4 main_v5
  let main_c_1 : IVec S_ 1 := constantI S_ 1 1#1
  let main_v7 : IVec S_ 1 := (fun x v => Host.reduce IntOp.andi x v reducesTo_S4096x1x256_S_d0_1_2 h_S_) main_v6 main_c_1
  let main_v8 : IVec S_ 1 := andi main_v3 main_v7
  let main_v9 : FVec F S4096x1x256 .f32 := Host.absf main_arg3
  let main_cst_2 : FVec F S_ .f32 := constant S_ .f32 0x7F800000#32
  let main_v10 : FVec F S4096x1x256 .f32 := broadcastInDim S4096x1x256 ![] bcast_S_S4096x1x256 main_cst_2
  let main_v11 : IVec S4096x1x256 1 := cmpf .olt main_v9 main_v10
  let main_c_3 : IVec S_ 1 := constantI S_ 1 1#1
  let main_v12 : IVec S_ 1 := (fun x v => Host.reduce IntOp.andi x v reducesTo_S4096x1x256_S_d0_1_2 h_S_) main_v11 main_c_3
  let main_v13 : IVec S_ 1 := andi main_v8 main_v12
  let main_v14 : FVec F S4096x1x1x256 .f32 := Host.absf main_arg4
  let main_cst_4 : FVec F S_ .f32 := constant S_ .f32 0x7F800000#32
  let main_v15 : FVec F S4096x1x1x256 .f32 := broadcastInDim S4096x1x1x256 ![] bcast_S_S4096x1x1x256 main_cst_4
  let main_v16 : IVec S4096x1x1x256 1 := cmpf .olt main_v14 main_v15
  fn_part1 (F := F) main_arg1 main_arg5 main_arg6 main_arg7 main_arg8 main_arg9 main_arg10 main_v13 main_v16
-- ==== Kernel.lean ====
abbrev S4096x128x256 : Shape := ⟨3, ![4096, 128, 256]⟩
abbrev S4096x1 : Shape := ⟨2, ![4096, 1]⟩
abbrev S4096x1x256 : Shape := ⟨3, ![4096, 1, 256]⟩
abbrev S4096x1x1x256 : Shape := ⟨4, ![4096, 1, 1, 256]⟩
abbrev S768x256 : Shape := ⟨2, ![768, 256]⟩
abbrev S256 : Shape := ⟨1, ![256]⟩
abbrev S256x256 : Shape := ⟨2, ![256, 256]⟩
abbrev S4096 : Shape := ⟨1, ![4096]⟩
abbrev S4096x256 : Shape := ⟨2, ![4096, 256]⟩
abbrev S4096x768 : Shape := ⟨2, ![4096, 768]⟩
abbrev S16x128x256 : Shape := ⟨3, ![16, 128, 256]⟩
abbrev S16x1 : Shape := ⟨2, ![16, 1]⟩
abbrev S16x768 : Shape := ⟨2, ![16, 768]⟩
abbrev S16 : Shape := ⟨1, ![16]⟩
abbrev S16x128 : Shape := ⟨2, ![16, 128]⟩
abbrev S16x128x1 : Shape := ⟨3, ![16, 128, 1]⟩
abbrev S16x256 : Shape := ⟨2, ![16, 256]⟩
abbrev S1x256 : Shape := ⟨2, ![1, 256]⟩
abbrev S16x1x256 : Shape := ⟨3, ![16, 1, 256]⟩

abbrev nBuf : Space → Nat
  | .hbm => 18
  | .vmem => 14
  | .smem => 0
  | _ => 0

abbrev bufTy : (tb : Table) → Fin (tcTables nBuf tb) → BufTy
  | .hbm, ⟨0, _⟩ => ⟨S4096x128x256, .f32⟩
  | .hbm, ⟨1, _⟩ => ⟨S4096x1, .i32⟩
  | .hbm, ⟨2, _⟩ => ⟨S4096x1x256, .f32⟩
  | .hbm, ⟨3, _⟩ => ⟨S4096x1x256, .f32⟩
  | .hbm, ⟨4, _⟩ => ⟨S4096x1x1x256, .f32⟩
  | .hbm, ⟨5, _⟩ => ⟨S768x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4096, .i32⟩
  | .hbm, ⟨12, _⟩ => ⟨S4096x1, .i32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x768, .f32⟩
  | .hbm, ⟨17, _⟩ => ⟨S4096x128x256, .f32⟩
  | .local _ .vmem, ⟨0, _⟩ => ⟨S16x128x256, .f32⟩
  | .local _ .vmem, ⟨1, _⟩ => ⟨S16x128x256, .f32⟩
  | .local _ .vmem, ⟨2, _⟩ => ⟨S16x1, .i32⟩
  | .local _ .vmem, ⟨3, _⟩ => ⟨S16x1, .i32⟩
  | .local _ .vmem, ⟨4, _⟩ => ⟨S16x768, .f32⟩
  | .local _ .vmem, ⟨5, _⟩ => ⟨S16x768, .f32⟩
  | .local _ .vmem, ⟨6, _⟩ => ⟨S768x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S16x128x256, .f32⟩
  | .local _ .vmem, ⟨13, _⟩ => ⟨S16x128x256, .f32⟩
  | _, _ => ⟨S4096x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4096x1_S4096 : S4096x1.ShapeCasts S4096
  shapeCasts_S4096_S4096x1 : S4096.ShapeCasts S4096x1
  shapeCasts_S4096x1x256_S4096x256 : S4096x1x256.ShapeCasts S4096x256
  shapeCasts_S4096x1x1x256_S4096x256 : S4096x1x1x256.ShapeCasts S4096x256
  concatenates_S4096x256_S4096x256_S4096x256_S4096x768_d1 : Shape.Concatenates [S4096x256, S4096x256, S4096x256] S4096x768 1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16 : S16x1.ShapeCasts S16
  iota_S16x128_d1_w32 : S16x128.Iotas .tc 32 [1]
  shapeCasts_S16_S16x1 : S16.ShapeCasts S16x1
  broadcasts_S16x1_S16x128 : S16x1.Broadcasts S16x128
  natLt_1_32 : 1 < 32
  shapeCasts_S16x128_S16x128x1 : S16x128.ShapeCasts S16x128x1
  inb_S16x128x256_S16x128x256_0_0_0 : ∀ a, (![0, 0, 0] : Fin 3 → Nat) a + S16x128x256.size a ≤ S16x128x256.size a
  h_S16x128x256 : 0 < S16x128x256.numel
  broadcasts_S16x128x1_S16x128x256 : S16x128x1.Broadcasts S16x128x256
  reduces_S16x128x256_S16x256 : S16x128x256.Reduces [1] S16x256
  inb_S16x768_S16x768_0_0 : ∀ a, (![0, 0] : Fin 2 → Nat) a + S16x768.size a ≤ S16x768.size a
  h_S16x768 : 0 < S16x768.numel
  shapeCasts_S16x768_S16x768 : S16x768.ShapeCasts S16x768
  inb_S768x256_S768x256_0_0 : ∀ a, (![0, 0] : Fin 2 → Nat) a + S768x256.size a ≤ S768x256.size a
  h_S768x256 : 0 < S768x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  reduces_S16x256_S16 : S16x256.Reduces [1] S16
  broadcasts_S16x1_S16x256 : S16x1.Broadcasts S16x256
  shapeCasts_S16x256_S16x1x256 : S16x256.ShapeCasts S16x1x256
  shapeCasts_S16x1x256_S16x1x256 : S16x1x256.ShapeCasts S16x1x256
  broadcasts_S16x1x256_S16x128x256 : S16x1x256.Broadcasts S16x128x256
  dot_S16x768_S768x256_S16x256_1_0_0_1_n_n_wf : DotDims.WF S16x768 S768x256 S16x256 [1] [0] [0] [1] [] []
  dot_S16x256_S256x256_S16x256_1_0_0_1_n_n_wf : DotDims.WF S16x256 S256x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S4096x128x256.size a
  hwx0_0 : ∀ i : grid0.Coords, EltTy.bits .f32 = 32 ∨ (Rect.block (s := S4096x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S4096x1.size a
  hwx0_1 : ∀ i : grid0.Coords, EltTy.bits .i32 = 32 ∨ (Rect.block (s := S4096x1) S16x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x768.size a ≤ S4096x768.size a
  hwx0_2 : ∀ i : grid0.Coords, EltTy.bits .f32 = 32 ∨ (Rect.block (s := S4096x768) S16x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x128x256.size a ≤ S4096x128x256.size a
  hwx0_9 : ∀ i : grid0.Coords, EltTy.bits .f32 = 32 ∨ (Rect.block (s := S4096x128x256) S16x128x256.size (cc0_transform_9 i) (hinb0_9 i)).WholeWords (EltTy.packing .f32)

variable [Facts₀]

def dot_S16x768_S768x256_S16x256_1_0_0_1_n_n : DotDims S16x768 S768x256 S16x256 where
  lhsContracting := [1]
  rhsContracting := [0]
  lhsNonContracting := [0]
  rhsNonContracting := [1]
  lhsBatch := []
  rhsBatch := []
  wf := dot_S16x768_S768x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.ofSpec (Memref.whole main_arg0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S16x128x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128x256 : Shape := ⟨3, ![4096, 128, 256]⟩
abbrev S4096x1 : Shape := ⟨2, ![4096, 1]⟩
abbrev S4096x1x256 : Shape := ⟨3, ![4096, 1, 256]⟩
abbrev S4096x1x1x256 : Shape := ⟨4, ![4096, 1, 1, 256]⟩
abbrev S768x256 : Shape := ⟨2, ![768, 256]⟩
abbrev S256 : Shape := ⟨1, ![256]⟩
abbrev S256x256 : Shape := ⟨2, ![256, 256]⟩
abbrev S4096 : Shape := ⟨1, ![4096]⟩
abbrev S_ : Shape := ⟨0, ![]⟩
abbrev S4096x2 : Shape := ⟨2, ![4096, 2]⟩
abbrev S4096x256 : Shape := ⟨2, ![4096, 256]⟩
abbrev S4096x768 : Shape := ⟨2, ![4096, 768]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S4096x128x256, .f32⟩
  | .hbm, ⟨1, _⟩ => ⟨S4096x1, .i32⟩
  | .hbm, ⟨2, _⟩ => ⟨S4096x1x256, .f32⟩
  | .hbm, ⟨3, _⟩ => ⟨S4096x1x256, .f32⟩
  | .hbm, ⟨4, _⟩ => ⟨S4096x1x1x256, .f32⟩
  | .hbm, ⟨5, _⟩ => ⟨S768x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x1, .i32⟩
  | .hbm, ⟨29, _⟩ => ⟨S4096x2, .i32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x768, .f32⟩
  | .hbm, ⟨35, _⟩ => ⟨S4096x256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S1x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x256, .f32⟩
  | .hbm, ⟨66, _⟩ => ⟨S4096x256, .f32⟩
  | .hbm, ⟨67, _⟩ => ⟨S1x256, .f32⟩
  | .hbm, ⟨68, _⟩ => ⟨S4096x256, .f32⟩
  | .hbm, ⟨69, _⟩ => ⟨S4096x256, .f32⟩
  | .hbm, ⟨70, _⟩ => ⟨S1x256, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S4096x1, .i32⟩
  | .hbm, ⟨90, _⟩ => ⟨S4096x2, .i32⟩
  | .hbm, ⟨91, _⟩ => ⟨S4096x128x256, .f32⟩
  | _, _ => ⟨S4096x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S4096x1x256_S4096x256 : S4096x1x256.ShapeCasts S4096x256
  shapeCasts_S4096x1x1x256_S4096x256 : S4096x1x1x256.ShapeCasts S4096x256
  concatenates_S4096x256_S4096x256_S4096x256_S4096x768_d1 : Shape.Concatenates [S4096x256, S4096x256, S4096x256] S4096x768 1
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  gather_S4096x128x256_S4096x2_S4096x256_1_01_n_n_01_1_11256_wf : GatherDims.WF S4096x128x256 S4096x2 S4096x256 [1] [0, 1] [] [0, 1] [] 1 ![1, 1, 256]
  dot_S4096x768_S768x256_S4096x256_1_0_0_1_n_n_wf : DotDims.WF S4096x768 S768x256 S4096x256 [1] [0] [0] [1] [] []
  dot_S4096x256_S256x256_S4096x256_1_0_0_1_n_n_wf : DotDims.WF S4096x256 S256x256 S4096x256 [1] [0] [0] [1] [] []
  scatter_S4096x128x256_S4096x2_S4096x256_1_01_01_1_wf : ScatterDims.WF S4096x128x256 S4096x2 S4096x256 [1] [0, 1] [0, 1] 1

variable [Facts₀]

def gather_S4096x128x256_S4096x2_S4096x256_1_01_n_n_01_1_11256 : GatherDims S4096x128x256 S4096x2 S4096x256 where
  offsetDims := [1]
  collapsedSliceDims := [0, 1]
  operandBatchingDims := []
  startIndicesBatchingDims := []
  startIndexMap := [0, 1]
  indexVectorDim := 1
  sliceSizes := ![1, 1, 256]
  wf := gather_S4096x128x256_S4096x2_S4096x256_1_01_n_n_01_1_11256_wf
def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S4096x128x256_S4096x2_S4096x256_1_01_01_1 : ScatterDims S4096x128x256 S4096x2 S4096x256 where
  updateWindowDims := [1]
  insertedWindowDims := [0, 1]
  scatterDimsToOperandDims := [0, 1]
  indexVectorDim := 1
  wf := scatter_S4096x128x256_S4096x2_S4096x256_1_01_01_1_wf

class Facts : Prop extends Facts₀ where

variable [Facts]
-- ==== Proof.KFrame.lean ====
/-
  The frame of the kernel program, written by hand against the pipeline library's launch theorem, at any float
  instance `F`.

  The program reshapes the slot words, lays the three feature blocks side by side (six host operations), and
  launches one pipeline over 256 grid points. Point `t` works on rows 16 t … 16 t + 15: it is handed the block of the
  memory, of the slot words and of the features for those rows, and the six parameter arrays whole, and it must
  leave in the output window's buffer the updated block. The body loads each of the nine inputs whole, computes,
  and stores the output block whole once; so after the body every input buffer holds what it held, and the output
  buffer holds one function of the nine input blocks (`out9`), whatever it held before.

  From that: the proof data of the pipeline, the body obligation at a generic point, the run of the whole program
  to the library's post (every array of the pipeline at what the proof data says, every other buffer as the region
  found it), and the frame: the eleven argument arrays end as they were launched.
-/
import proofs.«400350_j71494025609991_1_alg».proof.Proof.Gen.Kernel.Launch
import proofs.«400350_j71494025609991_1_alg».proof.Proof.Gen.Kernel.Skeleton
import proofs.«400350_j71494025609991_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's post, the eleven arguments unchanged: an argument a window stages is read through the
    proof data (an input's array is never written back), the four arguments no window stages through the post's
    second clause; either way the host operations wrote none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c)))⟩) h

/-! ## The body's accesses: every load and the store take the whole buffer -/

abbrev r0 : Rect S16x128x256 := Rect.unit (s := S16x128x256) ![0, 0, 0] S16x128x256.size inb_S16x128x256_S16x128x256_0_0_0
abbrev r1 : Rect S16x1 := Rect.unit (s := S16x1) ![0, 0] S16x1.size inb_S16x1_S16x1_0_0
abbrev r2 : Rect S16x768 := Rect.unit (s := S16x768) ![0, 0] S16x768.size inb_S16x768_S16x768_0_0
abbrev r3 : Rect S768x256 := Rect.unit (s := S768x256) ![0, 0] S768x256.size inb_S768x256_S768x256_0_0
abbrev r4 : Rect S256 := Rect.unit (s := S256) ![0] S256.size inb_S256_S256_0
abbrev r5 : Rect S256x256 := Rect.unit (s := S256x256) ![0, 0] S256x256.size inb_S256x256_S256x256_0_0
abbrev r6 : Rect S256 := r4
abbrev r7 : Rect S256 := r4
abbrev r8 : Rect S256 := r4

/-! ## What the body leaves in the output window's buffer -/

/-- The output buffer after the body, from the nine input blocks: its one store, over the whole buffer, of the
    arithmetic the skeleton names. -/
def out9 (x0 : Vec F S16x128x256 .f32) (x1 : Vec F S16x1 .i32) (x2 : Vec F S16x768 .f32) (x3 : Vec F S768x256 .f32) (x4 : Vec F S256 .f32) (x5 : Vec F S256x256 .f32) (x6 : Vec F S256 .f32) (x7 : Vec F S256 .f32) (x8 : Vec F S256 .f32) : Vec F S16x128x256 .f32 :=
  View.canon [⟨r0, k0_pay1 (k0_pay2 (View.ld x1 r1)) (View.ld x0 r0) (k0_pay3 (View.ld x1 r1) (View.ld x0 r0) (View.ld x2 r2) (View.ld x3 r3) (View.ld x5 r5) (View.ld x4 r4) (View.ld x6 r6)) (k0_pay4 (View.ld x1 r1) (View.ld x0 r0) (View.ld x2 r2) (View.ld x3 r3) (View.ld x5 r5) (View.ld x4 r4) (View.ld x6 r6)) (k0_pay5 (View.ld x1 r1) (View.ld x0 r0) (View.ld x2 r2) (View.ld x3 r3) (View.ld x5 r5) (View.ld x4 r4) (View.ld x6 r6)) (View.ld x7 r7) (View.ld x8 r8)⟩]

/-- The one store covers the buffer. -/
theorem cover9 (p0 : Vec F S16x128x256 .f32) (y : S16x128x256.Idx) :
    ∃ pc ∈ ([⟨r0, p0⟩] : List (View.Piece (Elt F) S16x128x256 .f32)), y ∈ pc.1.set :=
  View.cover_of_tiled [⟨r0, p0⟩] S16x128x256.size (by rfl) y

/-! ## The body's triple -/

set_option maxHeartbeats 4000000 in
/-- The kernel function on whole buffers, the nine inputs' at given contents and the output's at anything, runs to the
    continuation holding the inputs' as they were and the output's at `out9` of them. -/
theorem sound_kernel (c : Dev nD) (E : Set ℕ) (i : grid0.Coords) (a0 : Memref sig .tc .vmem S16x128x256 .f32) (ha0 : a0.IsWhole) (a1 : Memref sig .tc .vmem S16x1 .i32) (ha1 : a1.IsWhole) (a2 : Memref sig .tc .vmem S16x768 .f32) (ha2 : a2.IsWhole) (a3 : Memref sig .tc .vmem S768x256 .f32) (ha3 : a3.IsWhole) (a4 : Memref sig .tc .vmem S256 .f32) (ha4 : a4.IsWhole) (a5 : Memref sig .tc .vmem S256x256 .f32) (ha5 : a5.IsWhole) (a6 : Memref sig .tc .vmem S256 .f32) (ha6 : a6.IsWhole) (a7 : Memref sig .tc .vmem S256 .f32) (ha7 : a7.IsWhole) (a8 : Memref sig .tc .vmem S256 .f32) (ha8 : a8.IsWhole) (a9 : Memref sig .tc .vmem S16x128x256 .f32) (ha9 : a9.IsWhole)
    (x0 : Vec F S16x128x256 .f32) (x1 : Vec F S16x1 .i32) (x2 : Vec F S16x768 .f32) (x3 : Vec F S768x256 .f32) (x4 : Vec F S256 .f32) (x5 : Vec F S256x256 .f32) (x6 : Vec F S256 .f32) (x7 : Vec F S256 .f32) (x8 : Vec F S256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__kernel i a0 ha0 a1 ha1 a2 ha2 a3 ha3 a4 ha4 a5 ha5 a6 ha6 a7 ha7 a8 ha8 a9 ha9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The pipeline's proof data -/

/-- The proof data of the one pipeline on core `c`: the arrays as the region finds them; after the body at point `t` each
    input's buffer at its block and the output's at `out9` of the input blocks; the invariant the plain one (the scoped
    rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven arguments as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KIFrame.lean ====
/-
  The frame of the kernel program, written by hand against the pipeline library's launch theorem, at any float
  instance `F`.

  The program reshapes the slot words, lays the three feature blocks side by side (six host operations), and
  launches one pipeline over 256 grid points. Point `t` works on rows 16 t … 16 t + 15: it is handed the block of the
  memory, of the slot words and of the features for those rows, and the six parameter arrays whole, and it must
  leave in the output window's buffer the updated block. The body loads each of the nine inputs whole, computes,
  and stores the output block whole once; so after the body every input buffer holds what it held, and the output
  buffer holds one function of the nine input blocks (`out9`), whatever it held before.

  From that: the proof data of the pipeline, the body obligation at a generic point, the run of the whole program
  to the library's post (every array of the pipeline at what the proof data says, every other buffer as the region
  found it), and the frame: the eleven argument arrays end as they were launched.
-/
import proofs.«400350_j71494025609991_1_alg».proof.Proof.Gen.KernelIdeal.Launch
import proofs.«400350_j71494025609991_1_alg».proof.Proof.Gen.KernelIdeal.Skeleton
import proofs.«400350_j71494025609991_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the six host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, fetched there or not, for any proof data whose
    array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's post, the eleven arguments unchanged: an argument a window stages is read through the
    proof data (an input's array is never written back), the four arguments no window stages through the post's
    second clause; either way the host operations wrote none of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c)))⟩) h

/-! ## The body's accesses: every load and the store take the whole buffer -/

abbrev r0 : Rect S16x128x256 := Rect.unit (s := S16x128x256) ![0, 0, 0] S16x128x256.size inb_S16x128x256_S16x128x256_0_0_0
abbrev r1 : Rect S16x1 := Rect.unit (s := S16x1) ![0, 0] S16x1.size inb_S16x1_S16x1_0_0
abbrev r2 : Rect S16x768 := Rect.unit (s := S16x768) ![0, 0] S16x768.size inb_S16x768_S16x768_0_0
abbrev r3 : Rect S768x256 := Rect.unit (s := S768x256) ![0, 0] S768x256.size inb_S768x256_S768x256_0_0
abbrev r4 : Rect S256 := Rect.unit (s := S256) ![0] S256.size inb_S256_S256_0
abbrev r5 : Rect S256x256 := Rect.unit (s := S256x256) ![0, 0] S256x256.size inb_S256x256_S256x256_0_0
abbrev r6 : Rect S256 := r4
abbrev r7 : Rect S256 := r4
abbrev r8 : Rect S256 := r4

/-! ## What the body leaves in the output window's buffer -/

/-- The output buffer after the body, from the nine input blocks: its one store, over the whole buffer, of the
    arithmetic the skeleton names. -/
def out9 (x0 : Vec F S16x128x256 .f32) (x1 : Vec F S16x1 .i32) (x2 : Vec F S16x768 .f32) (x3 : Vec F S768x256 .f32) (x4 : Vec F S256 .f32) (x5 : Vec F S256x256 .f32) (x6 : Vec F S256 .f32) (x7 : Vec F S256 .f32) (x8 : Vec F S256 .f32) : Vec F S16x128x256 .f32 :=
  View.canon [⟨r0, k0_pay1 (k0_pay2 (View.ld x1 r1)) (View.ld x0 r0) (k0_pay3 (View.ld x1 r1) (View.ld x0 r0) (View.ld x2 r2) (View.ld x3 r3) (View.ld x5 r5) (View.ld x4 r4) (View.ld x6 r6)) (k0_pay4 (View.ld x1 r1) (View.ld x0 r0) (View.ld x2 r2) (View.ld x3 r3) (View.ld x5 r5) (View.ld x4 r4) (View.ld x6 r6)) (k0_pay5 (View.ld x1 r1) (View.ld x0 r0) (View.ld x2 r2) (View.ld x3 r3) (View.ld x5 r5) (View.ld x4 r4) (View.ld x6 r6)) (View.ld x7 r7) (View.ld x8 r8)⟩]

/-- The one store covers the buffer. -/
theorem cover9 (p0 : Vec F S16x128x256 .f32) (y : S16x128x256.Idx) :
    ∃ pc ∈ ([⟨r0, p0⟩] : List (View.Piece (Elt F) S16x128x256 .f32)), y ∈ pc.1.set :=
  View.cover_of_tiled [⟨r0, p0⟩] S16x128x256.size (by rfl) y

/-! ## The body's triple -/

set_option maxHeartbeats 4000000 in
/-- The kernel function on whole buffers, the nine inputs' at given contents and the output's at anything, runs to the
    continuation holding the inputs' as they were and the output's at `out9` of them. -/
theorem sound_kernel (c : Dev nD) (E : Set ℕ) (i : grid0.Coords) (a0 : Memref sig .tc .vmem S16x128x256 .f32) (ha0 : a0.IsWhole) (a1 : Memref sig .tc .vmem S16x1 .i32) (ha1 : a1.IsWhole) (a2 : Memref sig .tc .vmem S16x768 .f32) (ha2 : a2.IsWhole) (a3 : Memref sig .tc .vmem S768x256 .f32) (ha3 : a3.IsWhole) (a4 : Memref sig .tc .vmem S256 .f32) (ha4 : a4.IsWhole) (a5 : Memref sig .tc .vmem S256x256 .f32) (ha5 : a5.IsWhole) (a6 : Memref sig .tc .vmem S256 .f32) (ha6 : a6.IsWhole) (a7 : Memref sig .tc .vmem S256 .f32) (ha7 : a7.IsWhole) (a8 : Memref sig .tc .vmem S256 .f32) (ha8 : a8.IsWhole) (a9 : Memref sig .tc .vmem S16x128x256 .f32) (ha9 : a9.IsWhole)
    (x0 : Vec F S16x128x256 .f32) (x1 : Vec F S16x1 .i32) (x2 : Vec F S16x768 .f32) (x3 : Vec F S768x256 .f32) (x4 : Vec F S256 .f32) (x5 : Vec F S256x256 .f32) (x6 : Vec F S256 .f32) (x7 : Vec F S256 .f32) (x8 : Vec F S256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__kernel i a0 ha0 a1 ha1 a2 ha2 a3 ha3 a4 ha4 a5 ha5 a6 ha6 a7 ha7 a8 ha8 a9 ha9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The pipeline's proof data -/

/-- The proof data of the one pipeline on core `c`: the arrays as the region finds them; after the body at point `t` each
    input's buffer at its block and the output's at `out9` of the input blocks; the invariant the plain one (the scoped
    rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its eleven arguments as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.Spec.lean ====
/-
  What the program computes, stated once, index by index, over the extended reals.

  A row n of the memory has 128 slots of 256 numbers. The word `idx n` names one slot. The named slot's
  contents `cur` and the row's 768 features `xr` go through two linear maps and their biases,

      h j = (Σ k, xr k · Win k j) + bin j + (Σ k, cur k · Wh k j) + bh j,

  then a layer normalisation over the 256 entries (mean and variance by division by 256, the reciprocal square
  root of the variance plus a small constant, a scale and a shift) and a hyperbolic tangent. The result replaces
  the named slot; every other slot of the row is kept.

  "Slot l is the named one" is equality of 32-bit words, `BitVec.ofNat 32 l = idx n`: a word that is the number of
  no slot (128 or more, or negative) names none, and the row is kept whole. In the branch where slot l IS the
  named one, the contents that enter `h` are slot l's own, so the specification never has to look a slot up.
-/
import Idealize.ShloMosaic.PureOps.Ideal
import Idealize.ShloMosaic.Lib.ValueIdx

noncomputable section

namespace Cert.Spec

open Idealize.ShloMosaic Idealize.ShloMosaic.ValueIdx

/-- The memory: 4096 rows of 128 slots of 256 numbers. -/
abbrev SMem : Shape := ⟨3, ![4096, 128, 256]⟩
/-- The slot words, one per row. -/
abbrev SIdx : Shape := ⟨2, ![4096, 1]⟩
/-- The rows' features, three blocks of 256 laid side by side. -/
abbrev SX : Shape := ⟨2, ![4096, 768]⟩
/-- The first linear map. -/
abbrev SWin : Shape := ⟨2, ![768, 256]⟩
/-- The second linear map. -/
abbrev SWh : Shape := ⟨2, ![256, 256]⟩
/-- A bias, a scale or a shift. -/
abbrev SVec : Shape := ⟨1, ![256]⟩

/-- The divisor of the mean and of the variance: the number 256, as the word both programs carry. -/
def c256 : EReal := Ideal.ofBits .f32 0x43800000#32
/-- The constant added to the variance, as the word both programs carry (it rounds from 1e-5; both sides hold the
    same word, so its value is never needed). -/
def veps : EReal := Ideal.ofBits .f32 0x3727C5AC#32

/-- The pre-activation of one row, entry `j`: both projections and both biases, in the order the programs add them. -/
def hrow (xr : Fin 768 → EReal) (cur : Fin 256 → EReal) (Win : Fin 768 → Fin 256 → EReal) (bin : Fin 256 → EReal)
    (Wh : Fin 256 → Fin 256 → EReal) (bh : Fin 256 → EReal) (j : Fin 256) : EReal :=
  (∑ k : Fin 768, xr k * Win k j) + bin j + (∑ k : Fin 256, cur k * Wh k j) + bh j

/-- The mean of a row of 256 numbers. -/
def mean (h : Fin 256 → EReal) : EReal := Ideal.div (∑ j : Fin 256, h j) c256

/-- The variance of a row of 256 numbers about its mean. -/
def variance (h : Fin 256 → EReal) : EReal :=
  Ideal.div (∑ j : Fin 256, (h j - mean h) * (h j - mean h)) c256

/-- Layer normalisation of the row `h`, scaled by `gam` and shifted by `bet`, then the hyperbolic tangent: entry `j`. -/
def normTanh (h gam bet : Fin 256 → EReal) (j : Fin 256) : EReal :=
  Ideal.tanh ((h j - mean h) * Ideal.rsqrt (variance h + veps) * gam j + bet j)

/-- What replaces the named slot of a row: entry `j`. -/
def rowOut (xr : Fin 768 → EReal) (cur : Fin 256 → EReal) (Win : Fin 768 → Fin 256 → EReal) (bin : Fin 256 → EReal)
    (Wh : Fin 256 → Fin 256 → EReal) (bh gam bet : Fin 256 → EReal) (j : Fin 256) : EReal :=
  normTanh (hrow xr cur Win bin Wh bh) gam bet j

/-- The updated memory at row `n`, slot `l`, entry `j`, over explicit coordinates. -/
def Gat (mem : SMem.Idx → EReal) (idx : SIdx.Idx → BitVec 32) (xc : SX.Idx → EReal) (Win : SWin.Idx → EReal)
    (bin : SVec.Idx → EReal) (Wh : SWh.Idx → EReal) (bh gam bet : SVec.Idx → EReal)
    (n : Fin 4096) (l : Fin 128) (j : Fin 256) : EReal :=
  if BitVec.ofNat 32 l.val = idx (ix2 n (0 : Fin 1)) then
    rowOut (fun k => xc (ix2 n k)) (fun k => mem (ix3 n l k)) (fun k j' => Win (ix2 k j')) (fun j' => bin (ix1 j'))
      (fun k j' => Wh (ix2 k j')) (fun j' => bh (ix1 j')) (fun j' => gam (ix1 j')) (fun j' => bet (ix1 j')) j
  else mem (ix3 n l j)

/-- The updated memory as one array. -/
def G (mem : SMem.Idx → EReal) (idx : SIdx.Idx → BitVec 32) (xc : SX.Idx → EReal) (Win : SWin.Idx → EReal)
    (bin : SVec.Idx → EReal) (Wh : SWh.Idx → EReal) (bh gam bet : SVec.Idx → EReal) : SMem.Idx → EReal :=
  fun i => Gat mem idx xc Win bin Wh bh gam bet ⟨(i 0).val, (i 0).isLt⟩ ⟨(i 1).val, (i 1).isLt⟩ ⟨(i 2).val, (i 2).isLt⟩

/-- The array at an index given by its coordinates. -/
theorem G_ix3 (mem : SMem.Idx → EReal) (idx : SIdx.Idx → BitVec 32) (xc : SX.Idx → EReal) (Win : SWin.Idx → EReal)
    (bin : SVec.Idx → EReal) (Wh : SWh.Idx → EReal) (bh gam bet : SVec.Idx → EReal)
    (n : Fin 4096) (l : Fin 128) (j : Fin 256) :
    G mem idx xc Win bin Wh bh gam bet (ix3 n l j) = Gat mem idx xc Win bin Wh bh gam bet n l j := rfl

end Cert.Spec

end
-- ==== Proof.KIPayload.lean ====
/-
  The arithmetic of one grid point, read at one entry of the output block.

  The body's stored value is a function of nine loaded blocks: the 16 rows' memory block `v11`, their slot words `v0`,
  their features `v15`, and the six parameter arrays. At row `p` of the block, slot `l`, entry `j` it is
  `mem · (1 − e) + nh · e`, where `e` is 1 when the word of row `p` is the number `l` and 0 otherwise, and `nh` is the
  layer-normalised, squashed projection of the row whose second input is `Σ l', mem[p, l', ·] · e(p, l')`.
  * When the word is `l`: the sum over slots has one non-zero term, slot `l`'s contents, so `nh` is the
    specification's `rowOut` of the row's features and slot `l`; and `mem · 0 + nh · 1 = nh`.
  * Otherwise: `mem · 1 + nh · 0 = mem`.
  Only `x · 0 = 0`, `x · 1 = x`, `0 + x = x`, `1 − 1 = 0` and `1 − 0 = 1` on the extended reals are used; none needs a
  finite `x`.
-/
import proofs.«400350_j71494025609991_1_alg».proof.Proof.Gen.KernelIdeal.Skeleton
import proofs.«400350_j71494025609991_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## Layout operations at coordinates -/

/-- A column `[a, 1]` broadcast along its unit axis to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast along its unit axis to `[a, b, c]` reads, at `(p, l, j)`, the operand at `(p, l)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (l : Fin b) (j : Fin c) :
    broadcastTo ⟨3, ![a, b, c]⟩ v h (ix3 p l j) = v (ix3 p l (0 : Fin 1)) := by
  refine broadcastTo_apply v h (ix3 p l j) (ix3 p l (0 : Fin 1)) fun ax => ?_
  match ax with
  | ⟨0, _⟩ =>
    show p.val = if a = 1 then 0 else p.val
    split
    · have := p.isLt; omega
    · rfl
  | ⟨1, _⟩ =>
    show l.val = if b = 1 then 0 else l.val
    split
    · have := l.isLt; omega
    · rfl
  | ⟨2, _⟩ => rfl

/-- An `[a, 1, c]` array broadcast along its unit axis to `[a, b, c]` reads, at `(p, l, j)`, the operand at `(p, j)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (l : Fin b) (j : Fin c) :
    broadcastTo ⟨3, ![a, b, c]⟩ v h (ix3 p l j) = v (ix3 p (0 : Fin 1) j) := by
  refine broadcastTo_apply v h (ix3 p l j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- An `[a]` array cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to `[a]` reads, at `p`, the operand at `(p, 0)`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, b]` array cast to `[a, b, 1]` reads, at `(p, l, u)`, the operand at `(p, l)`. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (l : Fin b) (u : Fin 1) :
    shapeCast ⟨3, ![a, b, 1]⟩ x h (ix3 p l u) = x (ix2 p l) :=
  shapeCast_apply x h _ _ (by
    have hu : u.val = 0 := by omega
    rw [Shape.rowMajor_val_three, Shape.rowMajor_val_two]
    show p.val * b + l.val = (p.val * b + l.val) * 1 + u.val
    rw [hu, Nat.mul_one, Nat.add_zero])

/-- An `[a, b]` array cast to `[a, 1, b]` reads, at `(p, u, j)`, the operand at `(p, j)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (j : Fin b) :
    shapeCast ⟨3, ![a, 1, b]⟩ x h (ix3 p u j) = x (ix2 p j) :=
  shapeCast_apply x h _ _ (by
    have hu : u.val = 0 := by omega
    rw [Shape.rowMajor_val_three, Shape.rowMajor_val_two]
    show p.val * b + j.val = (p.val * 1 + u.val) * b + j.val
    rw [hu, Nat.mul_one, Nat.add_zero])

/-! ## The slot test as a number -/

/-- A comparison for equality answers the bit 1 on equal words and the bit 0 otherwise. -/
theorem cmpi_eq_bit {w : Nat} (a b : BitVec w) : IntOp.cmpi .eq a b = if a = b then 1#1 else 0#1 := by
  unfold IntOp.cmpi
  by_cases h : a = b
  · rw [if_pos h, h]; simp
  · rw [if_neg h, show (a == b) = false from beq_eq_false_iff_ne.mpr h]; rfl

/-- The slot test of row `p` at slot `l`, as a number: 1 when the row's word is the number `l`, else 0. -/
theorem onehot_at (v0 : Vec Ideal S16x1 .i32) (p : Fin 16) (l : Fin 128) :
    k0_pay2 (F := Ideal) v0 (ix3 p l (0 : Fin 1))
      = if BitVec.ofNat 32 l.val = v0 (ix2 p (0 : Fin 1)) then (1 : EReal) else 0 := by
  unfold k0_pay2
  refine (shapeCast_ab_ab1_apply _ shapeCasts_S16x128_S16x128x1 p l (0 : Fin 1)).trans ?_
  rw [sitofp_apply, extui_apply]
  show FloatOps.sitofp .f32 ((IntOp.cmpi .eq (iota .tc S16x128 32 [1] iota_S16x128_d1_w32 (ix2 p l)) _).setWidth 32) = _
  rw [iota_single_apply, broadcastTo_a1_ab_apply, shapeCast_self, shapeCast_shapeCast, shapeCast_self]
  show FloatOps.sitofp .f32 ((IntOp.cmpi .eq (BitVec.ofNat 32 l.val) (v0 (ix2 p (0 : Fin 1)))).setWidth 32) = _
  rw [cmpi_eq_bit]
  by_cases hw : BitVec.ofNat 32 l.val = v0 (ix2 p (0 : Fin 1))
  · rw [if_pos hw, if_pos hw]
    show ((((1#1 : BitVec 1).setWidth 32).toInt : ℝ) : EReal) = 1
    rw [show ((1#1 : BitVec 1).setWidth 32).toInt = 1 by decide]
    norm_num
  · rw [if_neg hw, if_neg hw]
    show ((((0#1 : BitVec 1).setWidth 32).toInt : ℝ) : EReal) = 0
    rw [show ((0#1 : BitVec 1).setWidth 32).toInt = 0 by decide]
    norm_num

/-- Two slot numbers with the same 32-bit word are the same slot. -/
theorem lane_eq_of_word_eq (l' l : Fin 128) (h : BitVec.ofNat 32 l'.val = BitVec.ofNat 32 l.val) : l' = l := by
  have h1 : l'.val % 2 ^ 32 = l.val % 2 ^ 32 := by simpa [BitVec.toNat_ofNat] using congrArg BitVec.toNat h
  apply Fin.ext
  have := l'.isLt
  have := l.isLt
  omega

/-! ## The sums along one axis, read at an index -/

/-- A sum along the second axis of a `[16, 256]` array, read at row `p`. -/
theorem rowsum_at (x : FVec Ideal S16x256 .f32) (hφ : FKind.Formats .f32)
    (hacc : (0x00000000#32 : BitVec 32) = 0x00000000#32) (p : Fin 16) :
    multiReduction (F := Ideal) .add [1] S16 x 0x00000000#32 reduces_S16x256_S16 hφ hacc (ix1 p)
      = ∑ k : Fin 256, x (ix2 p k) := by
  refine (Ideal.multiReduction_add_single x 0x00000000#32 reduces_S16x256_S16 hφ hacc (ix1 p)).trans ?_
  refine Finset.sum_congr rfl fun k _ => congrArg x ?_
  funext a
  match a with
  | ⟨0, _⟩ => rfl
  | ⟨1, _⟩ => rfl

/-- A sum along the slot axis of a `[16, 128, 256]` array, read at row `p`, entry `k`. -/
theorem lanesum_at (x : FVec Ideal S16x128x256 .f32) (hφ : FKind.Formats .f32)
    (hacc : (0x00000000#32 : BitVec 32) = 0x00000000#32) (p : Fin 16) (k : Fin 256) :
    multiReduction (F := Ideal) .add [1] S16x256 x 0x00000000#32 reduces_S16x128x256_S16x256 hφ hacc (ix2 p k)
      = ∑ l' : Fin 128, x (ix3 p l' k) := by
  refine (Ideal.multiReduction_add_single x 0x00000000#32 reduces_S16x128x256_S16x256 hφ hacc (ix2 p k)).trans ?_
  refine Finset.sum_congr rfl fun l' _ => congrArg x ?_
  funext a
  match a with
  | ⟨0, _⟩ => rfl
  | ⟨1, _⟩ => rfl
  | ⟨2, _⟩ => rfl

/-- The hyperbolic tangent of a vector at an index is the extended reals' of the element. -/
theorem tanh_apply {s : Shape} {φ : FTy} (x : FVec Ideal s φ) (i : s.Idx) : tanh x i = Ideal.tanh (x i) := rfl
/-- The reciprocal square root of a vector at an index is the extended reals' of the element. -/
theorem rsqrt_apply {s : Shape} {φ : FTy} (x : FVec Ideal s φ) (i : s.Idx) : rsqrt x i = Ideal.rsqrt (x i) := rfl

/-! ## The two products, read at an index -/

theorem lhsA_0 (i : S16x256.Idx) (q : dot_S16x768_S768x256_S16x256_1_0_0_1_n_n.contr.Idx) :
    (dot_S16x768_S768x256_S16x256_1_0_0_1_n_n.lhsIdx i q 0).val = (i 0).val := by
  unfold DotDims.lhsIdx
  rw [dif_neg (show ¬(0 : Fin S16x768.rank) ∈ dot_S16x768_S768x256_S16x256_1_0_0_1_n_n.lhsBatch by decide), dif_pos (show (0 : Fin S16x768.rank) ∈ dot_S16x768_S768x256_S16x256_1_0_0_1_n_n.lhsNonContracting by decide)]
  rfl
theorem lhsA_1 (i : S16x256.Idx) (q : dot_S16x768_S768x256_S16x256_1_0_0_1_n_n.contr.Idx) :
    (dot_S16x768_S768x256_S16x256_1_0_0_1_n_n.lhsIdx i q 1).val = (q ⟨0, by decide⟩).val :=
  dot_S16x768_S768x256_S16x256_1_0_0_1_n_n.lhsIdx_val_of_single rfl i q
theorem rhsA_0 (i : S16x256.Idx) (q : dot_S16x768_S768x256_S16x256_1_0_0_1_n_n.contr.Idx) :
    (dot_S16x768_S768x256_S16x256_1_0_0_1_n_n.rhsIdx i q 0).val = (q ⟨0, by decide⟩).val :=
  dot_S16x768_S768x256_S16x256_1_0_0_1_n_n.rhsIdx_val_of_single rfl i q
theorem rhsA_1 (i : S16x256.Idx) (q : dot_S16x768_S768x256_S16x256_1_0_0_1_n_n.contr.Idx) :
    (dot_S16x768_S768x256_S16x256_1_0_0_1_n_n.rhsIdx i q 1).val = (i 1).val := by
  unfold DotDims.rhsIdx
  rw [dif_neg (show ¬(1 : Fin S768x256.rank) ∈ dot_S16x768_S768x256_S16x256_1_0_0_1_n_n.rhsBatch by decide), dif_pos (show (1 : Fin S768x256.rank) ∈ dot_S16x768_S768x256_S16x256_1_0_0_1_n_n.rhsNonContracting by decide)]
  rfl

/-- The product of the 16 rows' features with the first linear map, at row `p`, entry `j`: the sum over the 768 features. -/
theorem mmA_at {φ₁ φ₂ : FTy} (a : FVec Ideal S16x768 φ₁) (b : FVec Ideal S768x256 φ₂) (p : Fin 16) (j : Fin 256) :
    matmul dot_S16x768_S768x256_S16x256_1_0_0_1_n_n none a b (constant (F := Ideal) S16x256 .f32 0x00000000#32) (ix2 p j)
      = ∑ k : Fin 768, a (ix2 p k) * b (ix2 k j) := by
  refine (Ideal.matmul_constant_zero_apply dot_S16x768_S768x256_S16x256_1_0_0_1_n_n none a b (ix2 p j)).trans ?_
  rw [← Equiv.sum_comp (contrEquiv1 dot_S16x768_S768x256_S16x256_1_0_0_1_n_n 768 rfl rfl).symm]
  refine Finset.sum_congr rfl fun k _ => ?_
  have hk := contrEquiv1_symm_val dot_S16x768_S768x256_S16x256_1_0_0_1_n_n 768 rfl rfl k
  have el : dot_S16x768_S768x256_S16x256_1_0_0_1_n_n.lhsIdx (ix2 p j) ((contrEquiv1 dot_S16x768_S768x256_S16x256_1_0_0_1_n_n 768 rfl rfl).symm k) = ix2 p k := funext fun a => Fin.ext (by
    match a with
    | ⟨0, _⟩ => exact lhsA_0 _ _
    | ⟨1, _⟩ => exact (lhsA_1 _ _).trans hk)
  have er : dot_S16x768_S768x256_S16x256_1_0_0_1_n_n.rhsIdx (ix2 p j) ((contrEquiv1 dot_S16x768_S768x256_S16x256_1_0_0_1_n_n 768 rfl rfl).symm k) = ix2 k j := funext fun a => Fin.ext (by
    match a with
    | ⟨0, _⟩ => exact (rhsA_0 _ _).trans hk
    | ⟨1, _⟩ => exact rhsA_1 _ _)
  rw [el, er]

theorem lhsB_0 (i : S16x256.Idx) (q : dot_S16x256_S256x256_S16x256_1_0_0_1_n_n.contr.Idx) :
    (dot_S16x256_S256x256_S16x256_1_0_0_1_n_n.lhsIdx i q 0).val = (i 0).val := by
  unfold DotDims.lhsIdx
  rw [dif_neg (show ¬(0 : Fin S16x256.rank) ∈ dot_S16x256_S256x256_S16x256_1_0_0_1_n_n.lhsBatch by decide), dif_pos (show (0 : Fin S16x256.rank) ∈ dot_S16x256_S256x256_S16x256_1_0_0_1_n_n.lhsNonContracting by decide)]
  rfl
theorem lhsB_1 (i : S16x256.Idx) (q : dot_S16x256_S256x256_S16x256_1_0_0_1_n_n.contr.Idx) :
    (dot_S16x256_S256x256_S16x256_1_0_0_1_n_n.lhsIdx i q 1).val = (q ⟨0, by decide⟩).val :=
  dot_S16x256_S256x256_S16x256_1_0_0_1_n_n.lhsIdx_val_of_single rfl i q
theorem rhsB_0 (i : S16x256.Idx) (q : dot_S16x256_S256x256_S16x256_1_0_0_1_n_n.contr.Idx) :
    (dot_S16x256_S256x256_S16x256_1_0_0_1_n_n.rhsIdx i q 0).val = (q ⟨0, by decide⟩).val :=
  dot_S16x256_S256x256_S16x256_1_0_0_1_n_n.rhsIdx_val_of_single rfl i q
theorem rhsB_1 (i : S16x256.Idx) (q : dot_S16x256_S256x256_S16x256_1_0_0_1_n_n.contr.Idx) :
    (dot_S16x256_S256x256_S16x256_1_0_0_1_n_n.rhsIdx i q 1).val = (i 1).val := by
  unfold DotDims.rhsIdx
  rw [dif_neg (show ¬(1 : Fin S256x256.rank) ∈ dot_S16x256_S256x256_S16x256_1_0_0_1_n_n.rhsBatch by decide), dif_pos (show (1 : Fin S256x256.rank) ∈ dot_S16x256_S256x256_S16x256_1_0_0_1_n_n.rhsNonContracting by decide)]
  rfl

/-- The product of the 16 rows' slot contents with the second linear map, at row `p`, entry `j`: the sum over the 256 entries. -/
theorem mmB_at {φ₁ φ₂ : FTy} (a : FVec Ideal S16x256 φ₁) (b : FVec Ideal S256x256 φ₂) (p : Fin 16) (j : Fin 256) :
    matmul dot_S16x256_S256x256_S16x256_1_0_0_1_n_n none a b (constant (F := Ideal) S16x256 .f32 0x00000000#32) (ix2 p j)
      = ∑ k : Fin 256, a (ix2 p k) * b (ix2 k j) := by
  refine (Ideal.matmul_constant_zero_apply dot_S16x256_S256x256_S16x256_1_0_0_1_n_n none a b (ix2 p j)).trans ?_
  rw [← Equiv.sum_comp (contrEquiv1 dot_S16x256_S256x256_S16x256_1_0_0_1_n_n 256 rfl rfl).symm]
  refine Finset.sum_congr rfl fun k _ => ?_
  have hk := contrEquiv1_symm_val dot_S16x256_S256x256_S16x256_1_0_0_1_n_n 256 rfl rfl k
  have el : dot_S16x256_S256x256_S16x256_1_0_0_1_n_n.lhsIdx (ix2 p j) ((contrEquiv1 dot_S16x256_S256x256_S16x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S16x256_S256x256_S16x256_1_0_0_1_n_n.rhsIdx (ix2 p j) ((contrEquiv1 dot_S16x256_S256x256_S16x256_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ## The payloads at an index -/

/-- The slot contents that enter the second product, at row `p`, entry `k`: when the row's word is the number `l`,
    the sum over slots of contents times slot test keeps slot `l`'s term alone. -/
theorem cur_at (v0 : Vec Ideal S16x1 .i32) (v11 : Vec Ideal S16x128x256 .f32) (p : Fin 16) (l : Fin 128)
    (hw : BitVec.ofNat 32 l.val = v0 (ix2 p (0 : Fin 1))) (k : Fin 256) :
    (∑ l' : Fin 128, v11 (ix3 p l' k) * k0_pay2 (F := Ideal) v0 (ix3 p l' (0 : Fin 1))) = v11 (ix3 p l k) := by
  rw [Finset.sum_eq_single l]
  · rw [onehot_at, if_pos hw, mul_one]
  · intro l' _ hne
    rw [onehot_at, if_neg (fun h => hne (lane_eq_of_word_eq l' l (h.trans hw.symm))), mul_zero]
  · intro h; exact absurd (Finset.mem_univ l) h

/-- The pre-activation of row `p`, entry `j`, when the row's word is the number `l`. -/
theorem pay3_at (v0 : Vec Ideal S16x1 .i32) (v11 : Vec Ideal S16x128x256 .f32) (v15 : Vec Ideal S16x768 .f32)
    (v17 : Vec Ideal S768x256 .f32) (v18 : Vec Ideal S256x256 .f32) (v25 v30 : Vec Ideal S256 .f32)
    (p : Fin 16) (l : Fin 128) (hw : BitVec.ofNat 32 l.val = v0 (ix2 p (0 : Fin 1))) (j : Fin 256) :
    k0_pay3 (F := Ideal) v0 v11 v15 v17 v18 v25 v30 (ix2 p j)
      = Cert.Spec.hrow (fun k => v15 (ix2 p k)) (fun k => v11 (ix3 p l k)) (fun k j' => v17 (ix2 k j'))
          (fun j' => v25 (ix1 j')) (fun k j' => v18 (ix2 k j')) (fun j' => v30 (ix1 j')) j := by
  unfold k0_pay3 Cert.Spec.hrow
  simp only [addf_apply, mmA_at, mmB_at, truncf_apply, shapeCast_self, broadcastTo_1b_ab_apply, shapeCast_a_1a_apply]
  congr 1
  congr 1
  refine Finset.sum_congr rfl fun k _ => ?_
  congr 1
  rw [lanesum_at]
  simp only [mulf_apply, broadcastTo_ab1_abc_apply]
  exact cur_at v0 v11 p l hw k

/-- The mean of row `p`'s pre-activation. -/
theorem pay4_at (v0 : Vec Ideal S16x1 .i32) (v11 : Vec Ideal S16x128x256 .f32) (v15 : Vec Ideal S16x768 .f32)
    (v17 : Vec Ideal S768x256 .f32) (v18 : Vec Ideal S256x256 .f32) (v25 v30 : Vec Ideal S256 .f32) (p : Fin 16) :
    k0_pay4 (F := Ideal) v0 v11 v15 v17 v18 v25 v30 (ix2 p (0 : Fin 1))
      = Ideal.div (∑ k : Fin 256, k0_pay3 (F := Ideal) v0 v11 v15 v17 v18 v25 v30 (ix2 p k)) (Ideal.ofBits .f32 0x43800000#32) := by
  unfold k0_pay4
  simp only [divf_apply, broadcast_apply, shapeCast_a_a1_apply]
  rw [rowsum_at]
  rfl

/-- The squared deviation of row `p`'s pre-activation from its mean, at entry `j`. -/
theorem pay5_at (v0 : Vec Ideal S16x1 .i32) (v11 : Vec Ideal S16x128x256 .f32) (v15 : Vec Ideal S16x768 .f32)
    (v17 : Vec Ideal S768x256 .f32) (v18 : Vec Ideal S256x256 .f32) (v25 v30 : Vec Ideal S256 .f32) (p : Fin 16) (j : Fin 256) :
    k0_pay5 (F := Ideal) v0 v11 v15 v17 v18 v25 v30 (ix2 p j)
      = (k0_pay3 (F := Ideal) v0 v11 v15 v17 v18 v25 v30 (ix2 p j) - k0_pay4 (F := Ideal) v0 v11 v15 v17 v18 v25 v30 (ix2 p (0 : Fin 1)))
        * (k0_pay3 (F := Ideal) v0 v11 v15 v17 v18 v25 v30 (ix2 p j) - k0_pay4 (F := Ideal) v0 v11 v15 v17 v18 v25 v30 (ix2 p (0 : Fin 1))) := by
  unfold k0_pay5
  simp only [mulf_apply, subf_apply, broadcastTo_a1_ab_apply]

/-- The stored value at row `p`, slot `l`, entry `j`, as a function of the values it is computed from: the memory
    entry times one less the slot test, plus the normalised and squashed pre-activation times the slot test. -/
theorem pay1_at (v10 : FVec Ideal S16x128x1 .f32) (v11 : Vec Ideal S16x128x256 .f32) (v33 : FVec Ideal S16x256 .f32)
    (v37 : FVec Ideal S16x1 .f32) (v40 : FVec Ideal S16x256 .f32) (v52 v56 : Vec Ideal S256 .f32)
    (p : Fin 16) (l : Fin 128) (j : Fin 256) :
    k0_pay1 (F := Ideal) v10 v11 v33 v37 v40 v52 v56 (ix3 p l j)
      = v11 (ix3 p l j) * (Ideal.ofBits .f32 0x3F800000#32 - v10 (ix3 p l (0 : Fin 1)))
        + Ideal.tanh ((v33 (ix2 p j) - v37 (ix2 p (0 : Fin 1)))
            * Ideal.rsqrt (Ideal.div (∑ k : Fin 256, v40 (ix2 p k)) (Ideal.ofBits .f32 0x43800000#32)
                + Ideal.ofBits .f32 0x3727C5AC#32)
            * v52 (ix1 j) + v56 (ix1 j)) * v10 (ix3 p l (0 : Fin 1)) := by
  unfold k0_pay1
  simp only [addf_apply, mulf_apply, subf_apply, divf_apply, tanh_apply, rsqrt_apply, broadcast_apply,
    broadcastTo_ab1_abc_apply, broadcastTo_a1c_abc_apply, broadcastTo_a1_ab_apply, broadcastTo_1b_ab_apply,
    shapeCast_self, shapeCast_ab_a1b_apply, shapeCast_a_a1_apply, shapeCast_a_1a_apply]
  rw [rowsum_at]
  rfl

/-! ## The stored value -/

/-- The word `0x3F800000` is the number one. -/
theorem one_f32 : Ideal.ofBits .f32 0x3F800000#32 = 1 := IdealRules.sign_bit.ideal_onePat .f32

/-- On the extended reals one less one is zero. -/
theorem one_sub_one : (1 : EReal) - 1 = 0 := by
  rw [← EReal.coe_one, ← EReal.coe_sub, sub_self, EReal.coe_zero]

/-- The stored value of one grid point at row `p`, slot `l`, entry `j` of the block. -/
theorem pay_at (v0 : Vec Ideal S16x1 .i32) (v11 : Vec Ideal S16x128x256 .f32) (v15 : Vec Ideal S16x768 .f32)
    (v17 : Vec Ideal S768x256 .f32) (v18 : Vec Ideal S256x256 .f32) (v25 v30 v52 v56 : Vec Ideal S256 .f32)
    (p : Fin 16) (l : Fin 128) (j : Fin 256) :
    k0_pay1 (F := Ideal) (k0_pay2 v0) v11 (k0_pay3 v0 v11 v15 v17 v18 v25 v30) (k0_pay4 v0 v11 v15 v17 v18 v25 v30)
        (k0_pay5 v0 v11 v15 v17 v18 v25 v30) v52 v56 (ix3 p l j)
      = if BitVec.ofNat 32 l.val = v0 (ix2 p (0 : Fin 1)) then
          Cert.Spec.rowOut (fun k => v15 (ix2 p k)) (fun k => v11 (ix3 p l k)) (fun k j' => v17 (ix2 k j'))
            (fun j' => v25 (ix1 j')) (fun k j' => v18 (ix2 k j')) (fun j' => v30 (ix1 j')) (fun j' => v52 (ix1 j'))
            (fun j' => v56 (ix1 j')) j
        else v11 (ix3 p l j) := by
  rw [pay1_at, onehot_at]
  by_cases hw : BitVec.ofNat 32 l.val = v0 (ix2 p (0 : Fin 1))
  · rw [if_pos hw, if_pos hw, one_f32, one_sub_one, mul_zero, zero_add, mul_one]
    unfold Cert.Spec.rowOut Cert.Spec.normTanh Cert.Spec.variance Cert.Spec.mean Cert.Spec.c256 Cert.Spec.veps
    simp only [pay5_at, pay4_at, pay3_at v0 v11 v15 v17 v18 v25 v30 p l hw]
  · rw [if_neg hw, if_neg hw, one_f32, sub_zero, mul_one, mul_zero, add_zero]

end Cert.KernelIdeal.Payload

end
-- ==== Proof.KIValue.lean ====
/-
  The kernel program's result is the specification's array (at the ideal instance).

  The region finds the slot words reshaped to a column and back (the same array), and the three feature blocks laid
  side by side. Point `t` of the grid is handed rows 16 t … 16 t + 15 of the memory, of the slot words and of the
  features, and the six parameter arrays whole; so an entry (p, l, j) of its blocks is the entry (16 t + p, l, j) of the
  arrays. By the arithmetic of one point read at an entry, what point `t` writes back is therefore block `t` of the
  specification's array. Every row lies in exactly the block of the point `row / 16`, every point writes its block
  back, so after the run the output array is the specification's array everywhere.
-/
import proofs.«400350_j71494025609991_1_alg».proof.Proof.KIFrame
import proofs.«400350_j71494025609991_1_alg».proof.Proof.KIPayload
import proofs.«400350_j71494025609991_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two windows the host operations write -/

/-- The three feature blocks, each 4096 rows of 256, laid side by side into 4096 rows of 768. -/
def xcat (x2 x3 : FVec Ideal S4096x1x256 .f32) (x4 : FVec Ideal S4096x1x1x256 .f32) : FVec Ideal S4096x768 .f32 :=
  concatenate S4096x768 1 [⟨S4096x256, shapeCast S4096x256 x2 shapeCasts_S4096x1x256_S4096x256⟩,
    ⟨S4096x256, shapeCast S4096x256 x3 shapeCasts_S4096x1x256_S4096x256⟩,
    ⟨S4096x256, shapeCast S4096x256 x4 shapeCasts_S4096x1x1x256_S4096x256⟩]
    concatenates_S4096x256_S4096x256_S4096x256_S4096x768_d1

/-- The features window's array, as the region finds it. -/
theorem V_main_v5 (c : Dev nD) : (V m c main_v5 : S4096x768.Idx → EReal)
    = xcat (m ((c : Thread nD τ).loc main_arg2)) (m ((c : Thread nD τ).loc main_arg3)) (m ((c : Thread nD τ).loc main_arg4)) := by
  dsimp only [V, hostOps0]; after_results; rfl

/-- The slot words' window's array, as the region finds it: the words' column flattened and made a column again. -/
theorem V_main_v1 (c : Dev nD) : (V m c main_v1 : S4096x1.Idx → BitVec 32)
    = shapeCast S4096x1 (shapeCast S4096 (m ((c : Thread nD τ).loc main_arg1)) shapeCasts_S4096x1_S4096) shapeCasts_S4096_S4096x1 := by
  dsimp only [V, hostOps0]; after_results; rfl

/-- Flattening a column of 4096 words and making it a column again changes nothing. -/
theorem reshape_back (x : IVec S4096x1 32) (n : Fin 4096) :
    shapeCast S4096x1 (shapeCast S4096 x shapeCasts_S4096x1_S4096) shapeCasts_S4096_S4096x1 (ix2 n (0 : Fin 1)) = x (ix2 n (0 : Fin 1)) := by
  rw [shapeCast_apply _ shapeCasts_S4096_S4096x1 (ix2 n (0 : Fin 1)) (ix1 n)
        (by rw [Shape.rowMajor_val_two, Shape.rowMajor_val_one]; show n.val = n.val * 1 + 0; omega),
      shapeCast_apply _ shapeCasts_S4096x1_S4096 (ix1 n) (ix2 n (0 : Fin 1))
        (by rw [Shape.rowMajor_val_two, Shape.rowMajor_val_one]; show n.val * 1 + 0 = n.val; omega)]

/-! ## The index maps, decided over the 256 points -/

/-- The memory, the slot words, the features and the output move one block of 16 rows per point; the six parameter
    arrays stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 3) = t.val ∧ win0_9.index t (1 : Fin 3) = 0 ∧ win0_9.index t (2 : Fin 3) = 0 :=
  (by decide +kernel : ∀ t : Fin grid0.N, _)

/-- Row `p` of point `t`'s block is row `16 t + p` of the array. -/
abbrev rowOf (t : Fin cfg0.N) (p : Fin 16) : Fin 4096 := ⟨t.val * 16 + p.val, by have := t.isLt; have := p.isLt; have : cfg0.N = 256 := N_0; omega⟩

/-! ## Each input block read at an entry -/

theorem blk0_at (c : Dev nD) (t : Fin cfg0.N) (p : Fin 16) (l : Fin 128) (k : Fin 256) :
    (iblk m c 0 t : S16x128x256.Idx → EReal) (ix3 p l k) = (m ((c : Thread nD τ).loc main_arg0)) (ix3 (rowOf t p) l k) := by
  obtain ⟨e0, e1, e2, -⟩ := idx_facts t
  unfold iblk
  rw [View.read_apply]
  show V m c main_arg0 (((cfg0.win 0).blk t).view.emb (ix3 p l k)) = _
  rw [V_main_arg0]
  refine congrArg _ (funext fun a => Fin.ext ?_)
  match a with
  | ⟨0, _⟩ => show win0_0.index t (0 : Fin 3) * 16 + 1 * p.val = t.val * 16 + p.val; omega
  | ⟨1, _⟩ => show win0_0.index t (1 : Fin 3) * 128 + 1 * l.val = l.val; omega
  | ⟨2, _⟩ => show win0_0.index t (2 : Fin 3) * 256 + 1 * k.val = k.val; omega

theorem blk1_at (c : Dev nD) (t : Fin cfg0.N) (p : Fin 16) :
    (iblk m c 1 t : S16x1.Idx → BitVec 32) (ix2 p (0 : Fin 1)) = (m ((c : Thread nD τ).loc main_arg1)) (ix2 (rowOf t p) (0 : Fin 1)) := by
  obtain ⟨-, -, -, e0, e1, -⟩ := idx_facts t
  unfold iblk
  rw [View.read_apply]
  show (V m c main_v1 : S4096x1.Idx → BitVec 32) (((cfg0.win 1).blk t).view.emb (ix2 p (0 : Fin 1))) = _
  rw [V_main_v1, ← reshape_back (m ((c : Thread nD τ).loc main_arg1)) (rowOf t p)]
  refine congrArg _ (funext fun a => Fin.ext ?_)
  match a with
  | ⟨0, _⟩ => show win0_1.index t (0 : Fin 2) * 16 + 1 * p.val = t.val * 16 + p.val; omega
  | ⟨1, _⟩ => show win0_1.index t (1 : Fin 2) * 1 + 1 * 0 = 0; omega

theorem blk2_at (c : Dev nD) (t : Fin cfg0.N) (p : Fin 16) (k : Fin 768) :
    (iblk m c 2 t : S16x768.Idx → EReal) (ix2 p k)
      = xcat (m ((c : Thread nD τ).loc main_arg2)) (m ((c : Thread nD τ).loc main_arg3)) (m ((c : Thread nD τ).loc main_arg4)) (ix2 (rowOf t p) k) := by
  obtain ⟨-, -, -, -, -, e0, e1, -⟩ := idx_facts t
  unfold iblk
  rw [View.read_apply]
  show (V m c main_v5 : S4096x768.Idx → EReal) (((cfg0.win 2).blk t).view.emb (ix2 p k)) = _
  rw [V_main_v5]
  refine congrArg _ (funext fun a => Fin.ext ?_)
  match a with
  | ⟨0, _⟩ => show win0_2.index t (0 : Fin 2) * 16 + 1 * p.val = t.val * 16 + p.val; omega
  | ⟨1, _⟩ => show win0_2.index t (1 : Fin 2) * 768 + 1 * k.val = k.val; omega

theorem blk3_at (c : Dev nD) (t : Fin cfg0.N) (k : Fin 768) (j : Fin 256) :
    (iblk m c 3 t : S768x256.Idx → EReal) (ix2 k j) = (m ((c : Thread nD τ).loc main_arg5)) (ix2 k j) := by
  obtain ⟨-, -, -, -, -, -, -, e0, e1, -⟩ := idx_facts t
  unfold iblk
  rw [View.read_apply]
  show V m c main_arg5 (((cfg0.win 3).blk t).view.emb (ix2 k j)) = _
  rw [V_main_arg5]
  refine congrArg _ (funext fun a => Fin.ext ?_)
  match a with
  | ⟨0, _⟩ => show win0_3.index t (0 : Fin 2) * 768 + 1 * k.val = k.val; omega
  | ⟨1, _⟩ => show win0_3.index t (1 : Fin 2) * 256 + 1 * j.val = j.val; omega

theorem blk4_at (c : Dev nD) (t : Fin cfg0.N) (j : Fin 256) :
    (iblk m c 4 t : S256.Idx → EReal) (ix1 j) = (m ((c : Thread nD τ).loc main_arg6)) (ix1 j) := by
  obtain ⟨-, -, -, -, -, -, -, -, -, e0, -⟩ := idx_facts t
  unfold iblk
  rw [View.read_apply]
  show V m c main_arg6 (((cfg0.win 4).blk t).view.emb (ix1 j)) = _
  rw [V_main_arg6]
  refine congrArg _ (funext fun a => Fin.ext ?_)
  match a with
  | ⟨0, _⟩ => show win0_4.index t (0 : Fin 1) * 256 + 1 * j.val = j.val; omega

theorem blk5_at (c : Dev nD) (t : Fin cfg0.N) (k : Fin 256) (j : Fin 256) :
    (iblk m c 5 t : S256x256.Idx → EReal) (ix2 k j) = (m ((c : Thread nD τ).loc main_arg7)) (ix2 k j) := by
  obtain ⟨-, -, -, -, -, -, -, -, -, -, e0, e1, -⟩ := idx_facts t
  unfold iblk
  rw [View.read_apply]
  show V m c main_arg7 (((cfg0.win 5).blk t).view.emb (ix2 k j)) = _
  rw [V_main_arg7]
  refine congrArg _ (funext fun a => Fin.ext ?_)
  match a with
  | ⟨0, _⟩ => show win0_5.index t (0 : Fin 2) * 256 + 1 * k.val = k.val; omega
  | ⟨1, _⟩ => show win0_5.index t (1 : Fin 2) * 256 + 1 * j.val = j.val; omega

theorem blk6_at (c : Dev nD) (t : Fin cfg0.N) (j : Fin 256) :
    (iblk m c 6 t : S256.Idx → EReal) (ix1 j) = (m ((c : Thread nD τ).loc main_arg8)) (ix1 j) := by
  obtain ⟨-, -, -, -, -, -, -, -, -, -, -, -, e0, -⟩ := idx_facts t
  unfold iblk
  rw [View.read_apply]
  show V m c main_arg8 (((cfg0.win 6).blk t).view.emb (ix1 j)) = _
  rw [V_main_arg8]
  refine congrArg _ (funext fun a => Fin.ext ?_)
  match a with
  | ⟨0, _⟩ => show win0_6.index t (0 : Fin 1) * 256 + 1 * j.val = j.val; omega

theorem blk7_at (c : Dev nD) (t : Fin cfg0.N) (j : Fin 256) :
    (iblk m c 7 t : S256.Idx → EReal) (ix1 j) = (m ((c : Thread nD τ).loc main_arg9)) (ix1 j) := by
  obtain ⟨-, -, -, -, -, -, -, -, -, -, -, -, -, e0, -⟩ := idx_facts t
  unfold iblk
  rw [View.read_apply]
  show V m c main_arg9 (((cfg0.win 7).blk t).view.emb (ix1 j)) = _
  rw [V_main_arg9]
  refine congrArg _ (funext fun a => Fin.ext ?_)
  match a with
  | ⟨0, _⟩ => show win0_7.index t (0 : Fin 1) * 256 + 1 * j.val = j.val; omega

theorem blk8_at (c : Dev nD) (t : Fin cfg0.N) (j : Fin 256) :
    (iblk m c 8 t : S256.Idx → EReal) (ix1 j) = (m ((c : Thread nD τ).loc main_arg10)) (ix1 j) := by
  obtain ⟨-, -, -, -, -, -, -, -, -, -, -, -, -, -, e0, -⟩ := idx_facts t
  unfold iblk
  rw [View.read_apply]
  show V m c main_arg10 (((cfg0.win 8).blk t).view.emb (ix1 j)) = _
  rw [V_main_arg10]
  refine congrArg _ (funext fun a => Fin.ext ?_)
  match a with
  | ⟨0, _⟩ => show win0_8.index t (0 : Fin 1) * 256 + 1 * j.val = j.val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification's array over the program's arguments on core `c`. -/
abbrev GK (c : Dev nD) : S4096x128x256.Idx → EReal := (Cert.Spec.G (m ((c : Thread nD τ).loc main_arg0)) (m ((c : Thread nD τ).loc main_arg1)) (xcat (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-- The body's result at point `t`, read at the entry (p, l, j) of the block, is the specification's array at
    (16 t + p, l, j): the arithmetic of one point, with every input block's entry traced to its array. -/
theorem out9_at (c : Dev nD) (t : Fin cfg0.N) (p : Fin 16) (l : Fin 128) (j : Fin 256) :
    out9 (F := Ideal) (iblk m c 0 t) (iblk m c 1 t) (iblk m c 2 t) (iblk m c 3 t) (iblk m c 4 t) (iblk m c 5 t)
        (iblk m c 6 t) (iblk m c 7 t) (iblk m c 8 t) (ix3 p l j)
      = GK m c (ix3 (rowOf t p) l j) := by
  unfold out9
  rw [View.canon_unit_zero hz3]
  simp only [View.ld_unit_zero (S := S16x128x256) hz3, View.ld_unit_zero (S := S16x1) hz2,
    View.ld_unit_zero (S := S16x768) hz2, View.ld_unit_zero (S := S768x256) hz2,
    View.ld_unit_zero (S := S256x256) hz2, View.ld_unit_zero (S := S256) hz1]
  refine (Cert.KernelIdeal.Payload.pay_at (iblk m c 1 t) (iblk m c 0 t) (iblk m c 2 t) (iblk m c 3 t) (iblk m c 5 t)
    (iblk m c 4 t) (iblk m c 6 t) (iblk m c 7 t) (iblk m c 8 t) p l j).trans ?_
  show _ = Cert.Spec.Gat (m ((c : Thread nD τ).loc main_arg0)) (m ((c : Thread nD τ).loc main_arg1)) (xcat (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t p) l j
  unfold Cert.Spec.Gat
  simp only [blk0_at, blk1_at, blk2_at, blk3_at, blk4_at, blk5_at, blk6_at, blk7_at, blk8_at]

/-- What point `t` writes back is block `t` of the specification's array. -/
theorem flushed9_eq (c : Dev nD) (t : Fin cfg0.N) :
    (dats m 0 c).flushed 9 t = ((cfg0.win 9).blk t).view.read (Elt Ideal) (GK m c) := by
  show (cfg0.win 9).cut (grid0.coords t) ((dats m 0 c).after 9 t) = _
  rw [after9]
  obtain ⟨-, -, -, -, -, -, -, -, -, -, -, -, -, -, -, e0, e1, e2⟩ := idx_facts t
  funext y
  obtain ⟨p, l, j, rfl⟩ : ∃ (p : Fin 16) (l : Fin 128) (j : Fin 256), y = ix3 p l j := ⟨y 0, y 1, y 2, eq_ix3 y⟩
  show out9 (F := Ideal) (iblk m c 0 t) (iblk m c 1 t) (iblk m c 2 t) (iblk m c 3 t) (iblk m c 4 t) (iblk m c 5 t)
      (iblk m c 6 t) (iblk m c 7 t) (iblk m c 8 t) (ix3 p l j) = GK m c (((cfg0.win 9).blk t).view.emb (ix3 p l j))
  rw [out9_at]
  refine congrArg _ (funext fun a => Fin.ext ?_)
  match a with
  | ⟨0, _⟩ => show t.val * 16 + p.val = win0_9.index t (0 : Fin 3) * 16 + 1 * p.val; omega
  | ⟨1, _⟩ => show l.val = win0_9.index t (1 : Fin 3) * 128 + 1 * l.val; omega
  | ⟨2, _⟩ => show j.val = win0_9.index t (2 : Fin 3) * 256 + 1 * j.val; omega

/-! ## The blocks cover the array -/

/-- An index of the array is in point `t`'s block iff each coordinate is in the block's range on its axis. -/
theorem mem_blk9 (t : Fin cfg0.N) (i : S4096x128x256.Idx) :
    i ∈ ((cfg0.win 9).blk t).view.set ↔ ∀ a : Fin 3, win0_9.index t a * S16x128x256.size a ≤ (i a).val ∧ (i a).val < win0_9.index t a * S16x128x256.size a + S16x128x256.size a := by
  show i ∈ ((View.whole main_v6).slice (win0_9.rect t)).set ↔ _
  rw [View.set_slice_whole, Rect.mem_set_unit]
  exact Iff.rfl

/-- Every entry of the array lies in the block of the point `row / 16`, which writes its block back. -/
theorem cover9 (i : S4096x128x256.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  have hi2 : (i 2).val < 256 := (i 2).isLt
  have hN : cfg0.N = 256 := N_0
  refine ⟨⟨(i 0).val / 16, by omega⟩, flush0_9 _, ?_⟩
  rw [mem_blk9]
  obtain ⟨-, -, -, -, -, -, -, -, -, -, -, -, -, -, -, e0, e1, e2⟩ := idx_facts ⟨(i 0).val / 16, by omega⟩
  intro a
  match a with
  | ⟨0, _⟩ => show win0_9.index ⟨(i 0).val / 16, _⟩ (0 : Fin 3) * 16 ≤ (i 0).val ∧ (i 0).val < win0_9.index ⟨(i 0).val / 16, _⟩ (0 : Fin 3) * 16 + 16; rw [e0]; show (i 0).val / 16 * 16 ≤ (i 0).val ∧ (i 0).val < (i 0).val / 16 * 16 + 16; omega
  | ⟨1, _⟩ => show win0_9.index ⟨(i 0).val / 16, _⟩ (1 : Fin 3) * 128 ≤ (i 1).val ∧ (i 1).val < win0_9.index ⟨(i 0).val / 16, _⟩ (1 : Fin 3) * 128 + 128; rw [e1]; omega
  | ⟨2, _⟩ => show win0_9.index ⟨(i 0).val / 16, _⟩ (2 : Fin 3) * 256 ≤ (i 2).val ∧ (i 2).val < win0_9.index ⟨(i 0).val / 16, _⟩ (2 : Fin 3) * 256 + 256; rw [e2]; omega

/-- After the run the output array is the specification's. -/
theorem final9 (c : Dev nD) : (dats m 0 c).arrAt 9 cfg0.N = GK m c :=
  (dats m 0 c).arrAt_eq_of_cover 9 (GK m c) (fun t _ => flushed9_eq m c t) (cover9)

/-! ## The run, read -/

/-- From any memory with zero counters every weakly fair execution of the kernel program terminates with its result
    array at the specification's array of the arguments, and the eleven arguments unchanged. -/
theorem kernel_run : θ_run defs (onTc (τ := τ) (main (F := Ideal))) ⟨m, fun _ => 0, ρ⟩ (fun r => ∀ c : Dev nD,
      r.2.mem ((c.tc : Thread nD τ).loc main_v6) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 9).trans (final9 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c)))⟩)
    (run_main m ρ)

end Cert.KernelIdeal.HandValue

end
-- ==== Proof.LibScatterSet.lean ====
/-
  A scatter whose body returns the update (jnp's `.at[…].set`), read at one element of the operand.

  The library defines the scatter as a left fold over the update indices in row-major order: each update whose
  result index lies inside the operand overwrites that element, and one whose result index falls outside is
  dropped. Read at a fixed element `i`:
  * if no update lands on `i`, the element is the operand's;
  * if some update lands on `i` and every update that lands there carries the same value, the element is that value
    (whichever of them the fold meets last).
  Both are statements about a fold over a list, proved for any list and then used at the list of all update indices.
-/
import Idealize.ShloMosaic.PureOps.ShapeOps

namespace Cert.Lib

open Idealize.ShloMosaic

section Fold

variable {ι κ α : Type} [DecidableEq ι]

/-- One step of the fold: the update `n` overwrites the element it lands on, or is dropped. -/
def setStep (R : κ → Option ι) (upd : κ → α) (r : ι → α) (n : κ) : ι → α :=
  match R n with
  | some i => fun i' => if i' = i then upd n else r i'
  | none => r

/-- One step read at the element the update lands on: the update's value. -/
theorem setStep_apply_of_eq (R : κ → Option ι) (upd : κ → α) (r : ι → α) (n : κ) (i : ι) (h : R n = some i) :
    setStep R upd r n i = upd n := by
  unfold setStep
  rw [h]
  exact if_pos rfl

/-- One step read at an element the update does not land on: the element is unchanged. -/
theorem setStep_apply_of_ne (R : κ → Option ι) (upd : κ → α) (r : ι → α) (n : κ) (i : ι) (h : R n ≠ some i) :
    setStep R upd r n i = r i := by
  unfold setStep
  cases hk : R n with
  | none => rfl
  | some k =>
    have hik : i ≠ k := fun e => h (by rw [hk, e])
    exact if_neg hik

/-- No update of the list lands on `i`: the fold leaves the operand's element. -/
theorem foldl_setStep_of_none (R : κ → Option ι) (upd : κ → α) (L : List κ) (x : ι → α) (i : ι)
    (h : ∀ n ∈ L, R n ≠ some i) : L.foldl (setStep R upd) x i = x i := by
  induction L generalizing x with
  | nil => rfl
  | cons n L ih =>
    -- the tail never lands on `i`, so it keeps what the first step left there; the first step misses `i` too
    rw [List.foldl_cons, ih _ (fun m hm => h m (List.mem_cons_of_mem _ hm))]
    exact setStep_apply_of_ne R upd x n i (h n (List.mem_cons_self ..))

/-- Some update of the list lands on `i`, and every one that does carries the value `v`: the fold leaves `v`. -/
theorem foldl_setStep_of_some (R : κ → Option ι) (upd : κ → α) (L : List κ) (x : ι → α) (i : ι) (v : α)
    (hex : ∃ n ∈ L, R n = some i) (hv : ∀ n ∈ L, R n = some i → upd n = v) : L.foldl (setStep R upd) x i = v := by
  -- induction on the list from its END: the last update either lands on `i` (and writes `v`) or misses it (and then
  -- some earlier update lands there, so the shorter fold already left `v`)
  induction L using List.reverseRecOn with
  | nil =>
    obtain ⟨n, hn, _⟩ := hex
    exact absurd hn List.not_mem_nil
  | append_singleton L n ih =>
    rw [List.foldl_append, List.foldl_cons, List.foldl_nil]
    by_cases hR : R n = some i
    · rw [setStep_apply_of_eq R upd _ n i hR]
      exact hv n (List.mem_append_right _ (List.mem_singleton_self n)) hR
    · rw [setStep_apply_of_ne R upd _ n i hR]
      refine ih ?_ (fun m hm => hv m (List.mem_append_left _ hm))
      obtain ⟨m, hm, hmi⟩ := hex
      rcases List.mem_append.mp hm with hm | hm
      · exact ⟨m, hm, hmi⟩
      · rw [List.mem_singleton] at hm
        subst hm
        exact absurd hmi hR

end Fold

variable {s si u : Shape} {α : Type} {w : Nat}

/-- The scatter whose body returns the update is the fold of `setStep` over all update indices in row-major order,
    each update `n` landing on its result index and carrying its own value. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  -- the two steps are the same case split on where the update `n` lands
  unfold setStep
  dsimp only
  cases d.resultIdx? (u.rowMajor.symm n) idx with
  | none => rfl
  | some k => rfl

/-- No update lands on `i`: the scatter leaves the operand's element there. -/
theorem scatter_set_of_none (d : ScatterDims s si u) (x : s.Idx → α) (idx : IVec si w) (upd : u.Idx → α) (i : s.Idx)
    (h : ∀ j : u.Idx, d.resultIdx? j idx ≠ some i) : Host.scatter d (fun _ b => b) x idx upd i = x i := by
  rw [scatter_set_eq_foldl]
  exact foldl_setStep_of_none _ _ _ x i (fun n _ => h _)

/-- Some update lands on `i`, and every update that lands there carries the value `v`: the scatter leaves `v` there. -/
theorem scatter_set_of_some (d : ScatterDims s si u) (x : s.Idx → α) (idx : IVec si w) (upd : u.Idx → α) (i : s.Idx) (v : α)
    (j₀ : u.Idx) (h₀ : d.resultIdx? j₀ idx = some i) (hv : ∀ j : u.Idx, d.resultIdx? j idx = some i → upd j = v) :
    Host.scatter d (fun _ b => b) x idx upd i = v := by
  rw [scatter_set_eq_foldl]
  refine foldl_setStep_of_some _ _ _ x i v ⟨u.rowMajor j₀, List.mem_finRange _, ?_⟩ (fun n _ hn => hv _ hn)
  -- the update `j₀` is the one at position `rowMajor j₀` of the list
  show d.resultIdx? (u.rowMajor.symm (u.rowMajor j₀)) idx = some i
  rw [Equiv.symm_apply_apply]
  exact h₀

end Cert.Lib
-- ==== Proof.RefRow.lean ====
/-
  One row of the reference through its two projections, layer normalisation and hyperbolic tangent.

  The reference computes, for all 4096 rows at once, the pre-activation (the features times the first map, a bias,
  the gathered slot times the second map, a bias), the mean and the variance of each row over its 256 entries by
  division by 256, the reciprocal square root of the variance plus a small constant, a scale, a shift, and the
  hyperbolic tangent. Read at row `n`, entry `j`, stage by stage, this is the specification's `rowOut` of the row's
  features and of the gathered slot's row. The gathered array is left as it is named: which slot it holds is
  another module's concern.
-/
import proofs.«400350_j71494025609991_1_alg».proof.Proof.Gen.ReferenceIdeal.Read
import proofs.«400350_j71494025609991_1_alg».proof.Proof.Spec
import Idealize.ShloMosaic.Lib.ValueIdx
import Idealize.ShloMosaic.PureOps.Ideal.Laws

noncomputable section

namespace Cert.ReferenceIdeal.RefRow

open Cert.ReferenceIdeal Cert.ReferenceIdeal.Gen Cert.ReferenceIdeal.Read
open Idealize.ShloMosaic Idealize.ShloMosaic.ValueIdx

section Layers

variable (x0 : (⟨S4096x128x256, .f32⟩ : BufTy).Contents (Elt Ideal)) (x1 : (⟨S4096x1, .i32⟩ : BufTy).Contents (Elt Ideal))
    (x2 x3 : (⟨S4096x1x256, .f32⟩ : BufTy).Contents (Elt Ideal)) (x4 : (⟨S4096x1x1x256, .f32⟩ : BufTy).Contents (Elt Ideal))
    (x5 : (⟨S768x256, .f32⟩ : BufTy).Contents (Elt Ideal)) (x6 : (⟨S256, .f32⟩ : BufTy).Contents (Elt Ideal))
    (x7 : (⟨S256x256, .f32⟩ : BufTy).Contents (Elt Ideal)) (x8 x9 x10 : (⟨S256, .f32⟩ : BufTy).Contents (Elt Ideal))

/-- The pre-activation of row `n` as the specification writes it: the row's features and the gathered row through the
    two maps and their biases. -/
abbrev hrowAt (n : Fin 4096) : Fin 256 → EReal :=
  Cert.Spec.hrow (fun k => val_main_v19 (F := Ideal) x2 x3 x4 (ix2 n k)) (fun k => val_main_v15 (F := Ideal) x0 x1 (ix2 n k))
    (fun k j' => x5 (ix2 k j')) (fun j' => x6 (ix1 j')) (fun k j' => x7 (ix2 k j')) (fun j' => x8 (ix1 j'))

/-- The sum of the two projections and the two biases, read at row `n`, entry `j`. -/
theorem v28_at (n : Fin 4096) (j : Fin 256) :
    val_main_v28 (F := Ideal) x0 x1 x2 x3 x4 x5 x6 x7 x8 (ix2 n j) = hrowAt x0 x1 x2 x3 x4 x5 x6 x7 x8 n j := by
  -- the indices the two products and the two broadcasts read, by coordinates
  have e1 : ∀ k : Fin 768, lidx_main_v20 (ix2 n j) k = ix2 n k := fun k =>
    funext fun a => Fin.ext (by match a with | ⟨0, _⟩ => rfl | ⟨1, _⟩ => rfl)
  have e2 : ∀ k : Fin 768, ridx_main_v20 (ix2 n j) k = ix2 k j := fun k =>
    funext fun a => Fin.ext (by match a with | ⟨0, _⟩ => rfl | ⟨1, _⟩ => rfl)
  have e3 : ∀ k : Fin 256, lidx_main_v24 (ix2 n j) k = ix2 n k := fun k =>
    funext fun a => Fin.ext (by match a with | ⟨0, _⟩ => rfl | ⟨1, _⟩ => rfl)
  have e4 : ∀ k : Fin 256, ridx_main_v24 (ix2 n j) k = ix2 k j := fun k =>
    funext fun a => Fin.ext (by match a with | ⟨0, _⟩ => rfl | ⟨1, _⟩ => rfl)
  have e5 : idx_main_v21 (idx_main_v22 (ix2 n j)) = ix1 j :=
    funext fun a => Fin.ext (by match a with | ⟨0, _⟩ => rfl)
  have e6 : idx_main_v26 (idx_main_v27 (ix2 n j)) = ix1 j :=
    funext fun a => Fin.ext (by match a with | ⟨0, _⟩ => rfl)
  rw [val_main_v28_apply, val_main_v25_apply, val_main_v23_apply, val_main_v20_apply, val_main_v24_apply,
    val_main_v22_apply, val_main_v21_apply, val_main_v27_apply, val_main_v26_apply, e5, e6]
  simp only [Ideal.addf_def, e1, e2, e3, e4]
  rfl

/-- The row's mean: the sum of the row's 256 entries, from zero, divided by the word for 256. -/
theorem v32_at (n : Fin 4096) :
    val_main_v32 (F := Ideal) x0 x1 x2 x3 x4 x5 x6 x7 x8 (ix2 n (0 : Fin 1)) = Cert.Spec.mean (hrowAt x0 x1 x2 x3 x4 x5 x6 x7 x8 n) := by
  have e : ∀ k : Fin 256, idx_main_v29 (idx_main_v30 (ix2 n (0 : Fin 1))) k = ix2 n k := fun k =>
    funext fun a => Fin.ext (by match a with | ⟨0, _⟩ => rfl | ⟨1, _⟩ => rfl)
  rw [val_main_v32_apply, val_main_v30_apply, val_main_v29_apply, val_main_v31_apply, val_main_cst_3_apply,
    val_main_cst_apply]
  simp only [Ideal.hostDivf_def, Ideal.ofBits_def, Ideal.ofBits_zero_f32, zero_add, e, v28_at]
  rfl

/-- An entry less the row's mean (the operand of the square). -/
theorem v34_at (n : Fin 4096) (k : Fin 256) :
    val_main_v34 (F := Ideal) x0 x1 x2 x3 x4 x5 x6 x7 x8 (ix2 n k)
      = hrowAt x0 x1 x2 x3 x4 x5 x6 x7 x8 n k - Cert.Spec.mean (hrowAt x0 x1 x2 x3 x4 x5 x6 x7 x8 n) := by
  have e : idx_main_v33 (ix2 n k) = ix2 n (0 : Fin 1) :=
    funext fun a => Fin.ext (by match a with | ⟨0, _⟩ => rfl | ⟨1, _⟩ => rfl)
  rw [val_main_v34_apply, val_main_v33_apply, e, v32_at, v28_at, Ideal.subf_def]

/-- An entry less the row's mean (the operand of the scaling; the program broadcasts the mean a second time). -/
theorem v41_at (n : Fin 4096) (k : Fin 256) :
    val_main_v41 (F := Ideal) x0 x1 x2 x3 x4 x5 x6 x7 x8 (ix2 n k)
      = hrowAt x0 x1 x2 x3 x4 x5 x6 x7 x8 n k - Cert.Spec.mean (hrowAt x0 x1 x2 x3 x4 x5 x6 x7 x8 n) := by
  have e : idx_main_v40 (ix2 n k) = ix2 n (0 : Fin 1) :=
    funext fun a => Fin.ext (by match a with | ⟨0, _⟩ => rfl | ⟨1, _⟩ => rfl)
  rw [val_main_v41_apply, val_main_v40_apply, e, v32_at, v28_at, Ideal.subf_def]

/-- The row's variance: the sum of the squared deviations, from zero, divided by the word for 256. -/
theorem v39_at (n : Fin 4096) :
    val_main_v39 (F := Ideal) x0 x1 x2 x3 x4 x5 x6 x7 x8 (ix2 n (0 : Fin 1)) = Cert.Spec.variance (hrowAt x0 x1 x2 x3 x4 x5 x6 x7 x8 n) := by
  have e : ∀ k : Fin 256, idx_main_v36 (idx_main_v37 (ix2 n (0 : Fin 1))) k = ix2 n k := fun k =>
    funext fun a => Fin.ext (by match a with | ⟨0, _⟩ => rfl | ⟨1, _⟩ => rfl)
  rw [val_main_v39_apply, val_main_v37_apply, val_main_v36_apply, val_main_v38_apply, val_main_cst_5_apply,
    val_main_cst_4_apply]
  simp only [Ideal.hostDivf_def, Ideal.ofBits_def, Ideal.ofBits_zero_f32, zero_add, e, val_main_v35_apply,
    Ideal.mulf_def, v34_at]
  rfl

end Layers

/-- The reference's row result at row `n`, entry `j`, is the specification's row function of the row's features and
    of the gathered row. -/
theorem v53_at (x0 : (⟨S4096x128x256, .f32⟩ : BufTy).Contents (Elt Ideal)) (x1 : (⟨S4096x1, .i32⟩ : BufTy).Contents (Elt Ideal))
    (x2 x3 : (⟨S4096x1x256, .f32⟩ : BufTy).Contents (Elt Ideal)) (x4 : (⟨S4096x1x1x256, .f32⟩ : BufTy).Contents (Elt Ideal))
    (x5 : (⟨S768x256, .f32⟩ : BufTy).Contents (Elt Ideal)) (x6 : (⟨S256, .f32⟩ : BufTy).Contents (Elt Ideal))
    (x7 : (⟨S256x256, .f32⟩ : BufTy).Contents (Elt Ideal)) (x8 x9 x10 : (⟨S256, .f32⟩ : BufTy).Contents (Elt Ideal))
    (n : Fin 4096) (j : Fin 256) :
    val_main_v53 (F := Ideal) x0 x1 x2 x3 x4 x5 x6 x7 x8 x9 x10 (ix2 n j)
      = Cert.Spec.rowOut (fun k => val_main_v19 (F := Ideal) x2 x3 x4 (ix2 n k)) (fun k => val_main_v15 (F := Ideal) x0 x1 (ix2 n k))
          (fun k j' => x5 (ix2 k j')) (fun j' => x6 (ix1 j')) (fun k j' => x7 (ix2 k j')) (fun j' => x8 (ix1 j'))
          (fun j' => x9 (ix1 j')) (fun j' => x10 (ix1 j')) j := by
  -- the indices the three broadcasts read, by coordinates
  have e45 : idx_main_v45 (ix2 n j) = ix2 n (0 : Fin 1) :=
    funext fun a => Fin.ext (by match a with | ⟨0, _⟩ => rfl | ⟨1, _⟩ => rfl)
  have e48 : idx_main_v47 (idx_main_v48 (ix2 n j)) = ix1 j :=
    funext fun a => Fin.ext (by match a with | ⟨0, _⟩ => rfl)
  have e51 : idx_main_v50 (idx_main_v51 (ix2 n j)) = ix1 j :=
    funext fun a => Fin.ext (by match a with | ⟨0, _⟩ => rfl)
  -- outermost first: tanh of (deviation · rsqrt (variance + eps) · scale + shift)
  rw [val_main_v53_apply, val_main_v52_apply, val_main_v49_apply, val_main_v46_apply, val_main_v45_apply, e45,
    val_main_v44_apply, val_main_v43_apply, val_main_v42_apply, val_main_cst_6_apply, val_main_v48_apply,
    val_main_v47_apply, e48, val_main_v51_apply, val_main_v50_apply, e51, v41_at, v39_at]
  simp only [Ideal.hostUnary_tanh_def, Ideal.hostUnary_rsqrt_def, Ideal.addf_def, Ideal.mulf_def, Ideal.ofBits_def]
  rfl

end Cert.ReferenceIdeal.RefRow

end
-- ==== Proof.RefValue.lean ====
/-
  The reference program's result is the specification's array.

  The reference turns each row's slot word into a pair of start indices (the row's own number, and the word with
  128 added when it is negative), gathers the named slot of every row, runs the projections, the layer
  normalisation and the hyperbolic tangent on the gathered rows, and scatters the result back at the same pairs.
  With every word non-negative the adjustment does nothing, so the pair of row `n` is (n, word n).
  * The scatter, read at (n, l, j): the update of row n' lands there exactly when n' = n and the word of row n, read as
    a signed number, is l; a word of 128 or more lands outside the operand and is dropped. So the element is the
    row's result when the word is l, and the memory's own element otherwise.
  * The gather of row n when the word is l (so 0 ≤ l < 128, nothing to clamp) reads slot l of row n.
  The rest is the generated stage-by-stage reading of the reference's operations.
-/
import proofs.«400350_j71494025609991_1_alg».proof.Proof.Gen.ReferenceIdeal.Read
import proofs.«400350_j71494025609991_1_alg».proof.Proof.Spec
import proofs.«400350_j71494025609991_1_alg».proof.Proof.LibScatterSet
import proofs.«400350_j71494025609991_1_alg».proof.Proof.RefRow
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- A word that is not negative as a signed number does not compare below zero. -/
theorem slt_zero_of_nonneg (a : BitVec 32) (h : 0 ≤ a.toInt) : IntOp.cmpi .slt a 0#32 = 0#1 := by
  apply eq_zero_of_ne_one
  intro h1
  unfold IntOp.cmpi at h1
  rw [StableHlo.Predicate.ofBool_eq_one_iff] at h1
  simp only [BitVec.slt, decide_eq_true_eq] at h1
  simp at h1
  omega

/-- The number of a row, as a word, read signed. -/
theorem toInt_row (n : Fin 4096) : (BitVec.ofNat 32 n.val).toInt = (n.val : Int) :=
  StableHlo.Predicate.toInt_ofNat_small n.val (by have := n.isLt; omega)

/-- The first start-index column before the join (scatter side): the row's own number. -/
theorem v64_at (n : Fin 4096) : val_main_v64 (F := Ideal) (ix2 n (0 : Fin 1)) = BitVec.ofNat 32 n.val := by
  rw [val_main_v64_apply, val_main_v58_apply, val_main_v55_apply, val_main_v0_apply, val_main_v54_apply, val_main_c_7_apply]
  rw [slt_zero_of_nonneg _ (by rw [show ((idx_main_v64 (ix2 n (0 : Fin 1))) 0).val = n.val from rfl, toInt_row]; omega), select_zero]

/-- The first start-index column before the join (gather side): the row's own number. -/
theorem v12_at (n : Fin 4096) : val_main_v12 (F := Ideal) (ix2 n (0 : Fin 1)) = BitVec.ofNat 32 n.val := by
  rw [val_main_v12_apply, val_main_v6_apply, val_main_v3_apply, val_main_v0_apply, val_main_v2_apply, val_main_c_apply]
  rw [slt_zero_of_nonneg _ (by rw [show ((idx_main_v12 (ix2 n (0 : Fin 1))) 0).val = n.val from rfl, toInt_row]; omega), select_zero]

/-- Reading the reshaped word column back at a row. -/
theorem idx_v1_row (n : Fin 4096) (i : S4096.Idx) (hi : (i 0).val = n.val) : idx_main_v1 i = ix2 n (0 : Fin 1) := by
  funext a; refine Fin.ext ?_
  match a with
  | ⟨0, _⟩ => show (i 0).val / 1 = n.val; omega
  | ⟨1, _⟩ => rfl

/-- The second start-index column before the join (scatter side): the row's word, unchanged when it is not negative. -/
theorem v65_at (x1 : (⟨S4096x1, .i32⟩ : BufTy).Contents (Elt Ideal)) (n : Fin 4096) (h : 0 ≤ (x1 (ix2 n (0 : Fin 1))).toInt) :
    val_main_v65 (F := Ideal) x1 (ix2 n (0 : Fin 1)) = x1 (ix2 n (0 : Fin 1)) := by
  rw [val_main_v65_apply, val_main_v63_apply, val_main_v60_apply, val_main_v1_apply, val_main_v59_apply, val_main_c_9_apply]
  rw [idx_v1_row n _ rfl, slt_zero_of_nonneg _ h, select_zero]

/-- The second start-index column before the join (gather side): the row's word, unchanged when it is not negative. -/
theorem v13_at (x1 : (⟨S4096x1, .i32⟩ : BufTy).Contents (Elt Ideal)) (n : Fin 4096) (h : 0 ≤ (x1 (ix2 n (0 : Fin 1))).toInt) :
    val_main_v13 (F := Ideal) x1 (ix2 n (0 : Fin 1)) = x1 (ix2 n (0 : Fin 1)) := by
  rw [val_main_v13_apply, val_main_v11_apply, val_main_v8_apply, val_main_v1_apply, val_main_v7_apply, val_main_c_1_apply]
  rw [idx_v1_row n _ rfl, slt_zero_of_nonneg _ h, select_zero]

/-- Two one-wide columns joined side by side, read in the first column. -/
theorem join_col0 (a b : S4096x1.Idx → BitVec 32) (n : Fin 4096) :
    concatenate S4096x2 1 [⟨S4096x1, a⟩, ⟨S4096x1, b⟩] Facts₀.concatenates_S4096x1_S4096x1_S4096x2_d1 (ix2 n (0 : Fin 2))
      = a (ix2 n (0 : Fin 1)) := by
  refine concatenate_pair_apply_left (1 : Fin S4096x2.rank) a b _ (ix2 n (0 : Fin 2)) rfl (ix2 n (0 : Fin 1)) ?_
  intro c
  match c with
  | ⟨0, _⟩ => rfl
  | ⟨1, _⟩ => rfl

/-- Two one-wide columns joined side by side, read in the second column. -/
theorem join_col1 (a b : S4096x1.Idx → BitVec 32) (n : Fin 4096) :
    concatenate S4096x2 1 [⟨S4096x1, a⟩, ⟨S4096x1, b⟩] Facts₀.concatenates_S4096x1_S4096x1_S4096x2_d1 (ix2 n (1 : Fin 2))
      = b (ix2 n (0 : Fin 1)) := by
  refine concatenate_pair_apply_right (1 : Fin S4096x2.rank) a b _ (ix2 n (1 : Fin 2)) rfl rfl (ix2 n (0 : Fin 1)) ?_ ?_
  · intro c hc
    match c with
    | ⟨0, _⟩ => rfl
    | ⟨1, _⟩ => exact absurd rfl hc
  · rfl

/-- The scatter's start indices: row n starts at (n, word n) when the word is not negative. -/
theorem v66_col0 (x1 : (⟨S4096x1, .i32⟩ : BufTy).Contents (Elt Ideal)) (n : Fin 4096) :
    val_main_v66 (F := Ideal) x1 (ix2 n (0 : Fin 2)) = BitVec.ofNat 32 n.val := by
  unfold val_main_v66; rw [join_col0, v64_at]
theorem v66_col1 (x1 : (⟨S4096x1, .i32⟩ : BufTy).Contents (Elt Ideal)) (n : Fin 4096) (h : 0 ≤ (x1 (ix2 n (0 : Fin 1))).toInt) :
    val_main_v66 (F := Ideal) x1 (ix2 n (1 : Fin 2)) = x1 (ix2 n (0 : Fin 1)) := by
  unfold val_main_v66; rw [join_col1, v65_at x1 n h]

/-- The gather's start indices: the same pair. -/
theorem v14_col0 (x1 : (⟨S4096x1, .i32⟩ : BufTy).Contents (Elt Ideal)) (n : Fin 4096) :
    val_main_v14 (F := Ideal) x1 (ix2 n (0 : Fin 2)) = BitVec.ofNat 32 n.val := by
  unfold val_main_v14; rw [join_col0, v12_at]
theorem v14_col1 (x1 : (⟨S4096x1, .i32⟩ : BufTy).Contents (Elt Ideal)) (n : Fin 4096) (h : 0 ≤ (x1 (ix2 n (0 : Fin 1))).toInt) :
    val_main_v14 (F := Ideal) x1 (ix2 n (1 : Fin 2)) = x1 (ix2 n (0 : Fin 1)) := by
  unfold val_main_v14; rw [join_col1, v13_at x1 n h]

/-- An update lands on the element `i` exactly when, on every axis, its start plus its window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := Option.some.inj e
      have e2 := congrArg (fun f => (f a).val) e'
      simp only at e2
      have h1 := (h a).1
      omega
    · intro e
      refine congrArg some (funext fun a => Fin.ext ?_)
      have e1 := e a
      have h1 := (h a).1
      show (d.start j idx a + ↑(d.window j a)).toNat = (i a).val
      omega
  · next h =>
    constructor
    · intro e; cases e
    · intro e
      refine absurd (fun a => ⟨?_, ?_⟩) h
      · rw [e a]; omega
      · rw [e a]; exact_mod_cast (i a).isLt

/-- The scatter of this program: on the row axis an update starts at its first index column, read signed, and has no window. -/
theorem scat_axis0 (idx : IVec S4096x2 32) (n' : Fin 4096) (j' : Fin 256) :
    scatter_S4096x128x256_S4096x2_S4096x256_1_01_01_1.start (ix2 n' j') idx (0 : Fin S4096x128x256.rank)
      + (scatter_S4096x128x256_S4096x2_S4096x256_1_01_01_1.window (ix2 n' j') (0 : Fin S4096x128x256.rank) : Int)
      = (idx (ix2 n' (0 : Fin 2))).toInt := by
  unfold ScatterDims.start ScatterDims.window
  rw [dif_pos (show (0 : Fin S4096x128x256.rank) ∈ scatter_S4096x128x256_S4096x2_S4096x256_1_01_01_1.scatterDimsToOperandDims by decide),
    dif_neg (show ¬(0 : Fin S4096x128x256.rank) ∈ scatter_S4096x128x256_S4096x2_S4096x256_1_01_01_1.sKept by decide)]
  have e : scatter_S4096x128x256_S4096x2_S4096x256_1_01_01_1.siIdx (ix2 n' j')
      ⟨List.idxOf (0 : Fin S4096x128x256.rank) scatter_S4096x128x256_S4096x2_S4096x256_1_01_01_1.scatterDimsToOperandDims,
        List.idxOf_lt_length_iff.2 (by decide)⟩ = ix2 n' (0 : Fin 2) := by
    funext b; refine Fin.ext ?_
    match b with
    | ⟨0, _⟩ => rfl
    | ⟨1, _⟩ => rfl
  rw [e]; simp

/-- On the slot axis an update starts at its second index column, read signed, and has no window. -/
theorem scat_axis1 (idx : IVec S4096x2 32) (n' : Fin 4096) (j' : Fin 256) :
    scatter_S4096x128x256_S4096x2_S4096x256_1_01_01_1.start (ix2 n' j') idx (1 : Fin S4096x128x256.rank)
      + (scatter_S4096x128x256_S4096x2_S4096x256_1_01_01_1.window (ix2 n' j') (1 : Fin S4096x128x256.rank) : Int)
      = (idx (ix2 n' (1 : Fin 2))).toInt := by
  unfold ScatterDims.start ScatterDims.window
  rw [dif_pos (show (1 : Fin S4096x128x256.rank) ∈ scatter_S4096x128x256_S4096x2_S4096x256_1_01_01_1.scatterDimsToOperandDims by decide),
    dif_neg (show ¬(1 : Fin S4096x128x256.rank) ∈ scatter_S4096x128x256_S4096x2_S4096x256_1_01_01_1.sKept by decide)]
  have e : scatter_S4096x128x256_S4096x2_S4096x256_1_01_01_1.siIdx (ix2 n' j')
      ⟨List.idxOf (1 : Fin S4096x128x256.rank) scatter_S4096x128x256_S4096x2_S4096x256_1_01_01_1.scatterDimsToOperandDims,
        List.idxOf_lt_length_iff.2 (by decide)⟩ = ix2 n' (1 : Fin 2) := by
    funext b; refine Fin.ext ?_
    match b with
    | ⟨0, _⟩ => rfl
    | ⟨1, _⟩ => rfl
  rw [e]; simp

/-- On the entry axis an update starts at zero and its window coordinate is its own entry. -/
theorem scat_axis2 (idx : IVec S4096x2 32) (n' : Fin 4096) (j' : Fin 256) :
    scatter_S4096x128x256_S4096x2_S4096x256_1_01_01_1.start (ix2 n' j') idx (2 : Fin S4096x128x256.rank)
      + (scatter_S4096x128x256_S4096x2_S4096x256_1_01_01_1.window (ix2 n' j') (2 : Fin S4096x128x256.rank) : Int)
      = (j'.val : Int) := by
  unfold ScatterDims.start ScatterDims.window
  rw [dif_neg (show ¬(2 : Fin S4096x128x256.rank) ∈ scatter_S4096x128x256_S4096x2_S4096x256_1_01_01_1.scatterDimsToOperandDims by decide),
    dif_pos (show (2 : Fin S4096x128x256.rank) ∈ scatter_S4096x128x256_S4096x2_S4096x256_1_01_01_1.sKept by decide)]
  rw [Int.zero_add]
  rfl

/-- Where an update of this scatter lands: update (n', j') lands on (n, l, jj) exactly when its two start indices, read signed,
    are n and l, and j' = jj. -/
theorem scat_lands_iff (idx : IVec S4096x2 32) (n' n : Fin 4096) (j' jj : Fin 256) (l : Fin 128) :
    scatter_S4096x128x256_S4096x2_S4096x256_1_01_01_1.resultIdx? (ix2 n' j') idx = some (ix3 n l jj) ↔
      (idx (ix2 n' (0 : Fin 2))).toInt = (n.val : Int) ∧ (idx (ix2 n' (1 : Fin 2))).toInt = (l.val : Int) ∧ j' = jj := by
  rw [resultIdx?_eq_some_iff]
  constructor
  · intro h
    have h0 := h (0 : Fin S4096x128x256.rank)
    have h1 := h (1 : Fin S4096x128x256.rank)
    have h2 := h (2 : Fin S4096x128x256.rank)
    rw [scat_axis0] at h0; rw [scat_axis1] at h1; rw [scat_axis2] at h2
    refine ⟨h0, h1, Fin.ext ?_⟩
    have h2' : (j'.val : Int) = (jj.val : Int) := h2
    omega
  · rintro ⟨h0, h1, rfl⟩ a
    match a with
    | ⟨0, _⟩ => exact (scat_axis0 idx n' j').trans h0
    | ⟨1, _⟩ => exact (scat_axis1 idx n' j').trans h1
    | ⟨2, _⟩ => exact scat_axis2 idx n' j'

/-- The gather of this program on the row axis: row n starts at n, inside the memory, with no offset. -/
theorem gath_axis0 (x1 : (⟨S4096x1, .i32⟩ : BufTy).Contents (Elt Ideal)) (n : Fin 4096) (k : Fin 256) :
    gather_S4096x128x256_S4096x2_S4096x256_1_01_n_n_01_1_11256.start (ix2 n k) (val_main_v14 (F := Ideal) x1) (0 : Fin S4096x128x256.rank)
      + gather_S4096x128x256_S4096x2_S4096x256_1_01_n_n_01_1_11256.offCoord (ix2 n k) (0 : Fin S4096x128x256.rank) = n.val := by
  rw [GatherDims.offCoord_eq_zero _ _ _ (show ¬(0 : Fin S4096x128x256.rank) ∈ gather_S4096x128x256_S4096x2_S4096x256_1_01_n_n_01_1_11256.sKept by decide),
    Nat.add_zero]
  unfold GatherDims.start
  rw [dif_pos (show (0 : Fin S4096x128x256.rank) ∈ gather_S4096x128x256_S4096x2_S4096x256_1_01_n_n_01_1_11256.startIndexMap by decide)]
  have e : gather_S4096x128x256_S4096x2_S4096x256_1_01_n_n_01_1_11256.siIdx (ix2 n k)
      ⟨List.idxOf (0 : Fin S4096x128x256.rank) gather_S4096x128x256_S4096x2_S4096x256_1_01_n_n_01_1_11256.startIndexMap,
        List.idxOf_lt_length_iff.2 (by decide)⟩ = ix2 n (0 : Fin 2) := by
    funext b; refine Fin.ext ?_
    match b with
    | ⟨0, _⟩ => rfl
    | ⟨1, _⟩ => rfl
  rw [e, v14_col0, toInt_row]
  show min ((n.val : Int)).toNat (4096 - 1) = n.val
  have := n.isLt
  simp only [Int.toNat_natCast]; omega

/-- On the slot axis: when the row's word is the number l of a slot, the row starts at l, inside the memory, with no offset. -/
theorem gath_axis1 (x1 : (⟨S4096x1, .i32⟩ : BufTy).Contents (Elt Ideal)) (n : Fin 4096) (l : Fin 128) (k : Fin 256)
    (hw : x1 (ix2 n (0 : Fin 1)) = BitVec.ofNat 32 l.val) :
    gather_S4096x128x256_S4096x2_S4096x256_1_01_n_n_01_1_11256.start (ix2 n k) (val_main_v14 (F := Ideal) x1) (1 : Fin S4096x128x256.rank)
      + gather_S4096x128x256_S4096x2_S4096x256_1_01_n_n_01_1_11256.offCoord (ix2 n k) (1 : Fin S4096x128x256.rank) = l.val := by
  have hl : (BitVec.ofNat 32 l.val).toInt = (l.val : Int) :=
    StableHlo.Predicate.toInt_ofNat_small l.val (by have := l.isLt; omega)
  have hnn : 0 ≤ (x1 (ix2 n (0 : Fin 1))).toInt := by rw [hw, hl]; omega
  rw [GatherDims.offCoord_eq_zero _ _ _ (show ¬(1 : Fin S4096x128x256.rank) ∈ gather_S4096x128x256_S4096x2_S4096x256_1_01_n_n_01_1_11256.sKept by decide),
    Nat.add_zero]
  unfold GatherDims.start
  rw [dif_pos (show (1 : Fin S4096x128x256.rank) ∈ gather_S4096x128x256_S4096x2_S4096x256_1_01_n_n_01_1_11256.startIndexMap by decide)]
  have e : gather_S4096x128x256_S4096x2_S4096x256_1_01_n_n_01_1_11256.siIdx (ix2 n k)
      ⟨List.idxOf (1 : Fin S4096x128x256.rank) gather_S4096x128x256_S4096x2_S4096x256_1_01_n_n_01_1_11256.startIndexMap,
        List.idxOf_lt_length_iff.2 (by decide)⟩ = ix2 n (1 : Fin 2) := by
    funext b; refine Fin.ext ?_
    match b with
    | ⟨0, _⟩ => rfl
    | ⟨1, _⟩ => rfl
  rw [e, v14_col1 x1 n hnn, hw, hl]
  show min ((l.val : Int)).toNat (128 - 1) = l.val
  have := l.isLt
  simp only [Int.toNat_natCast]; omega

/-- On the entry axis: no start index, and the offset is the entry k. -/
theorem gath_axis2 (x1 : (⟨S4096x1, .i32⟩ : BufTy).Contents (Elt Ideal)) (n : Fin 4096) (k : Fin 256) :
    gather_S4096x128x256_S4096x2_S4096x256_1_01_n_n_01_1_11256.start (ix2 n k) (val_main_v14 (F := Ideal) x1) (2 : Fin S4096x128x256.rank)
      + gather_S4096x128x256_S4096x2_S4096x256_1_01_n_n_01_1_11256.offCoord (ix2 n k) (2 : Fin S4096x128x256.rank) = k.val := by
  unfold GatherDims.start GatherDims.offCoord
  rw [dif_neg (show ¬(2 : Fin S4096x128x256.rank) ∈ gather_S4096x128x256_S4096x2_S4096x256_1_01_n_n_01_1_11256.startIndexMap by decide),
    dif_pos (show (2 : Fin S4096x128x256.rank) ∈ gather_S4096x128x256_S4096x2_S4096x256_1_01_n_n_01_1_11256.sKept by decide),
    Nat.zero_add]
  rfl

/-- The gather of this program at row n, entry k, when the row's word is the number l of a slot: it reads slot l of row n. Both
    start indices lie inside the memory, so nothing is clamped. -/
theorem v15_at (x0 : (⟨S4096x128x256, .f32⟩ : BufTy).Contents (Elt Ideal)) (x1 : (⟨S4096x1, .i32⟩ : BufTy).Contents (Elt Ideal))
    (n : Fin 4096) (l : Fin 128) (k : Fin 256) (hw : x1 (ix2 n (0 : Fin 1)) = BitVec.ofNat 32 l.val) :
    val_main_v15 (F := Ideal) x0 x1 (ix2 n k) = x0 (ix3 n l k) := by
  unfold val_main_v15 Host.gather
  congr 1
  funext a
  refine Fin.ext ?_
  show gather_S4096x128x256_S4096x2_S4096x256_1_01_n_n_01_1_11256.start (ix2 n k) (val_main_v14 (F := Ideal) x1) a
      + gather_S4096x128x256_S4096x2_S4096x256_1_01_n_n_01_1_11256.batchCoord (ix2 n k) a
      + gather_S4096x128x256_S4096x2_S4096x256_1_01_n_n_01_1_11256.offCoord (ix2 n k) a = (ix3 n l k a).val
  rw [GatherDims.batchCoord_eq_zero _ _ _ (show a ∉ gather_S4096x128x256_S4096x2_S4096x256_1_01_n_n_01_1_11256.operandBatchingDims from List.not_mem_nil),
    Nat.add_zero]
  match a with
  | ⟨0, _⟩ => exact gath_axis0 x1 n k
  | ⟨1, _⟩ => exact gath_axis1 x1 n l k hw
  | ⟨2, _⟩ => exact gath_axis2 x1 n k

/-- With every slot word non-negative, the reference's result array is the specification's, over the same
    arguments, the three feature blocks laid side by side as the reference lays them. -/
theorem ref_eq_G (x0 : (⟨S4096x128x256, .f32⟩ : BufTy).Contents (Elt Ideal)) (x1 : (⟨S4096x1, .i32⟩ : BufTy).Contents (Elt Ideal))
    (x2 x3 : (⟨S4096x1x256, .f32⟩ : BufTy).Contents (Elt Ideal)) (x4 : (⟨S4096x1x1x256, .f32⟩ : BufTy).Contents (Elt Ideal))
    (x5 : (⟨S768x256, .f32⟩ : BufTy).Contents (Elt Ideal)) (x6 : (⟨S256, .f32⟩ : BufTy).Contents (Elt Ideal))
    (x7 : (⟨S256x256, .f32⟩ : BufTy).Contents (Elt Ideal)) (x8 x9 x10 : (⟨S256, .f32⟩ : BufTy).Contents (Elt Ideal))
    (hidx : ∀ i : S4096x1.Idx, 0 ≤ (x1 i).toInt) :
    val_main_v67 (F := Ideal) x0 x1 x2 x3 x4 x5 x6 x7 x8 x9 x10
      = Cert.Spec.G x0 x1 (val_main_v19 (F := Ideal) x2 x3 x4) x5 x6 x7 x8 x9 x10 := by
  funext i
  obtain ⟨n, l, jj, rfl⟩ : ∃ (n : Fin 4096) (l : Fin 128) (jj : Fin 256), i = ix3 n l jj := ⟨i 0, i 1, i 2, eq_ix3 i⟩
  rw [Cert.Spec.G_ix3]
  unfold Cert.Spec.Gat val_main_v67
  have hl : (BitVec.ofNat 32 l.val).toInt = (l.val : Int) :=
    StableHlo.Predicate.toInt_ofNat_small l.val (by have := l.isLt; omega)
  -- every update that lands on (n, l, jj) is the update (n, jj), and the word of row n, read signed, is l
  have hland : ∀ (n' : Fin 4096) (j' : Fin 256),
      scatter_S4096x128x256_S4096x2_S4096x256_1_01_01_1.resultIdx? (ix2 n' j') (val_main_v66 (F := Ideal) x1) = some (ix3 n l jj) ↔
        n' = n ∧ (x1 (ix2 n (0 : Fin 1))).toInt = (l.val : Int) ∧ j' = jj := by
    intro n' j'
    rw [scat_lands_iff, v66_col0, toInt_row, v66_col1 x1 n' (hidx _)]
    constructor
    · rintro ⟨h0, h1, h2⟩
      have e : n' = n := Fin.ext (by omega)
      subst e
      exact ⟨rfl, h1, h2⟩
    · rintro ⟨rfl, h1, h2⟩
      exact ⟨rfl, h1, h2⟩
  by_cases hw : BitVec.ofNat 32 l.val = x1 (ix2 n (0 : Fin 1))
  · -- the word of row n names slot l: the update of row n lands here, and no other does
    rw [if_pos hw]
    have hwl : (x1 (ix2 n (0 : Fin 1))).toInt = (l.val : Int) := by rw [← hw, hl]
    rw [Cert.Lib.scatter_set_of_some _ x0 (val_main_v66 (F := Ideal) x1) _ (ix3 n l jj)
      (val_main_v53 (F := Ideal) x0 x1 x2 x3 x4 x5 x6 x7 x8 x9 x10 (ix2 n jj)) (ix2 n jj)
      ((hland n jj).2 ⟨rfl, hwl, rfl⟩)
      (by
        intro j hj
        obtain ⟨n', j', rfl⟩ : ∃ (n' : Fin 4096) (j' : Fin 256), j = ix2 n' j' := ⟨j 0, j 1, eq_ix2 j⟩
        obtain ⟨rfl, -, rfl⟩ := (hland n' j').1 hj
        rfl)]
    rw [Cert.ReferenceIdeal.RefRow.v53_at]
    congr 1
    funext k
    exact v15_at x0 x1 n l k hw.symm
  · -- the word of row n names another slot, or none: no update lands here
    rw [if_neg hw]
    refine Cert.Lib.scatter_set_of_none _ x0 (val_main_v66 (F := Ideal) x1) _ (ix3 n l jj) ?_
    intro j hj
    obtain ⟨n', j', rfl⟩ : ∃ (n' : Fin 4096) (j' : Fin 256), j = ix2 n' j' := ⟨j 0, j 1, eq_ix2 j⟩
    obtain ⟨-, h1, -⟩ := (hland n' j').1 hj
    exact hw (BitVec.eq_of_toInt_eq (by rw [hl, h1]))

end Cert.ReferenceIdeal.RefValue

end
-- ==== Proof.PreDecode.lean ====
/-
  What the precondition says about the slot words: each is non-negative as a signed 32-bit number.

  The printed precondition is a conjunction of eleven "all entries …" tests joined by `and`; its last conjunct is
  `all (veh_idx ≥ 0)`, a signed comparison of every word with zero folded by `and`. From "the whole conjunction is
  1" the last conjunct is 1, so every comparison is 1, which is the inequality on the words read as integers.
-/
import proofs.«400350_j71494025609991_1_alg».proof.Pre_finite_inputs
import proofs.«400350_j71494025609991_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Cert.Pre_finite_inputs.Gen
open Idealize.ShloMosaic Idealize.ShloMosaic.ValueIdx

variable {F : FTy → Type} [FloatOps F]

/-- Under the precondition every slot word is non-negative. -/
theorem idx_nonneg (a0 : FVec F S4096x128x256 .f32) (a1 : IVec S4096x1 32) (a2 a3 : FVec F S4096x1x256 .f32)
    (a4 : FVec F S4096x1x1x256 .f32) (a5 : FVec F S768x256 .f32) (a6 : FVec F S256 .f32) (a7 : FVec F S256x256 .f32)
    (a8 a9 a10 : FVec F S256 .f32)
    (h : Cert.Pre_finite_inputs.fn (F := F) a0 a1 a2 a3 a4 a5 a6 a7 a8 a9 a10 = fun _ => 1#1) :
    ∀ i : S4096x1.Idx, 0 ≤ (a1 i).toInt := by
  intro i
  -- the precondition, read at its one index
  have h0 := congrFun h ValueIdx.ix0
  -- open the printed chain down to its last `and`
  unfold Cert.Pre_finite_inputs.fn at h0
  dsimp only at h0
  unfold Cert.Pre_finite_inputs.fn_part1 at h0
  dsimp only at h0
  unfold Cert.Pre_finite_inputs.fn_part2 at h0
  dsimp only at h0
  unfold Cert.Pre_finite_inputs.fn_part3 at h0
  dsimp only at h0
  -- an `and` of two bits is 1 only if both are: keep the last conjunct, `all (word ≥ 0)`
  have h1 := (IntOp.andi_eq_one.1 h0).2
  -- a fold by `and` over every word that came out 1 met a 1 at every word
  haveI : Subsingleton S_.Idx := ⟨fun a b => funext fun d => d.elim0⟩
  have h2 := Host.reduce_andi_all _ _ _ _ _ h1 i
  -- the comparison at `i` is the signed `0 ≤ word`; the broadcast scalar reads 0 everywhere
  have h3 : (0#32 : BitVec 32).toInt ≤ (a1 i).toInt := IntOp.cmpi_sge.1 h2
  exact h3

end Cert.Pre_finite_inputs.Decode

end
-- ==== Proof.lean ====
/-
  The certificate: the kernel program and its reference compute the same updated memory.

  Each row of the memory names one of its 128 slots by a 32-bit word; the named slot is replaced by a layer-normalised,
  squashed projection of its own contents and the row's features (Proof/Spec.lean). The kernel finds the slot by
  comparing the word with each slot's number, sums the slots against that one-hot mask and blends the result back with
  it; the reference gathers the slot, computes, and scatters it back. With the word non-negative (the precondition's
  added conjunct) the two agree: a word that is a slot's number names that slot on both sides, and a word that is no
  slot's number (128 or more) changes nothing on either side: the kernel's mask is all zero, the reference's scatter
  drops an update that lands outside the array. A negative word is excluded because the reference would count it back
  from the end of the row, which the kernel's comparison does not do.

  * The frames of the two kernel programs are the hand frame (Proof/KIFrame.lean, and its copy for the word-level
    program), the reference's is its generated run with the result dropped.
  * The idealization rewrote nothing, so `preserves` has nothing to state.
  * For `algebraic`, both runs end at the SAME array, the specification's: the kernel's by Proof/KIValue.lean (no
    hypothesis on the words is needed there: the comparison is equality of words), the reference's by
    Proof/RefValue.lean under the words' non-negativity, which Proof/PreDecode.lean reads off the precondition.
    No finiteness of the float inputs is used anywhere: the only laws are x·0 = 0, x·1 = x and 0 + x = x.
-/
import proofs.«400350_j71494025609991_1_alg».proof.Defs
import proofs.«400350_j71494025609991_1_alg».proof.Proof.Gen.Kernel
import proofs.«400350_j71494025609991_1_alg».proof.Proof.Gen.KernelIdeal
import proofs.«400350_j71494025609991_1_alg».proof.Proof.Gen.ReferenceIdeal
import proofs.«400350_j71494025609991_1_alg».proof.Proof.Gen.Pre_finite_inputs
import proofs.«400350_j71494025609991_1_alg».proof.Proof.Gen.ReferenceIdeal.Run
import proofs.«400350_j71494025609991_1_alg».proof.Proof.Gen.ReferenceIdeal.Read
import proofs.«400350_j71494025609991_1_alg».proof.Proof.KFrame
import proofs.«400350_j71494025609991_1_alg».proof.Proof.KIFrame
import proofs.«400350_j71494025609991_1_alg».proof.Proof.KIValue
import proofs.«400350_j71494025609991_1_alg».proof.Proof.RefValue
import proofs.«400350_j71494025609991_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The three feature blocks laid side by side: the kernel program's host operations and the reference's build the
    same array. -/
theorem xcat_eq (x2 x3 : FVec Ideal Cert.KernelIdeal.S4096x1x256 .f32) (x4 : FVec Ideal Cert.KernelIdeal.S4096x1x1x256 .f32) :
    Cert.ReferenceIdeal.Read.val_main_v19 (F := Ideal) x2 x3 x4 = Cert.KernelIdeal.HandValue.xcat x2 x3 x4 := rfl

/-- From memories that agree on the arguments both programs end at the specification's array of those arguments. -/
theorem algebraic : Cert.algebraic_KernelIdeal_ReferenceIdeal := by
  intro m ρ m' ρ' hpre hagree
  refine ⟨fun c => Cert.KernelIdeal.HandValue.GK m c, Cert.KernelIdeal.HandValue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  have hidx := Cert.Pre_finite_inputs.Decode.idx_nonneg (F := Ideal) _ _ _ _ _ _ _ _ _ _ _ (hpre c)
  rw [Cert.ReferenceIdeal.Read.val_main_v67_eq, h0, h1, h2, h3, h4, h5, h6, h7, h8, h9, h10]
  rw [Cert.ReferenceIdeal.RefValue.ref_eq_G _ _ _ _ _ _ _ _ _ _ _ hidx, xcat_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
